-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 99
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S1x64, .f32⟩
  | .hbm, ⟨61, _⟩ => ⟨S100000x64, .f32⟩
  | .hbm, ⟨62, _⟩ => ⟨S_, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .i32⟩
  | .hbm, ⟨68, _⟩ => ⟨S_, .f32⟩
  | .hbm, ⟨69, _⟩ => ⟨S64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S10000x64_S10000x64 : S10000x64.ShapeCasts S10000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i32⟩
  | .hbm, ⟨80, _⟩ => ⟨S_, .f32⟩
  | .hbm, ⟨81, _⟩ => ⟨S64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, as functions of the argument arrays, over the host operations the
  reference is printed in.

  A graph-isomorphism layer: (agg x e) adds to every node row the sum of the rows of its in-neighbours: the rows
  x[src] gathered along the edge table's first row (a negative index wrapped by the node count) and added into
  the rows named by its second row. Three layers follow one another, each an affine map of the aggregated rows
  (a contraction over the 128 features plus a bias row), the first two followed by max(., 0). The last layer's 64
  columns are then normalised over the 100000 nodes: the column mean, the biased column variance,
  rstd = (var + eps)^(-1/2), and ((h - mean) * rstd) * gamma + beta.
-/
import proofs.«178634_j77558519431976_1_alg».proof.ReferenceIdeal
import Idealize.ShloMosaic.PureOps.Ideal

noncomputable section

namespace Cert.Spec

open Idealize.ShloMosaic Cert.ReferenceIdeal Cert.ReferenceIdeal.Facts₀

variable {F : FTy → Type} [FloatOps F] [Cert.ReferenceIdeal.Facts]

/-- Row 0 of the edge table (the sources) as a vector of 1600000 node indices. -/
def edgeRow0 (e : IVec S2x1600000 32) : IVec S1600000 32 :=
  shapeCast S1600000 (extractStridedSlice S1x1600000 ![0, 0] e slices_S2x1600000_S1x1600000_0_0) shapeCasts_S1x1600000_S1600000
/-- Row 1 of the edge table (the destinations). -/
def edgeRow1 (e : IVec S2x1600000 32) : IVec S1600000 32 :=
  shapeCast S1600000 (extractStridedSlice S1x1600000 ![1, 0] e slices_S2x1600000_S1x1600000_1_0) shapeCasts_S1x1600000_S1600000

/-- The source indices with a negative one wrapped by the node count, as a column of start indices. -/
def srcCol (r0 : IVec S1600000 32) : IVec S1600000x1 32 :=
  broadcastInDim S1600000x1 ![0] bcast_S1600000_S1600000x1_0
    (select (cmpi .slt r0 (broadcastInDim S1600000 ![] bcast_S_S1600000 (constantI S_ 32 0#32)))
      (addi r0 (broadcastInDim S1600000 ![] bcast_S_S1600000 (constantI S_ 32 100000#32)))
      r0)
/-- The destination indices as a column of scatter indices. -/
def dstCol (r1 : IVec S1600000 32) : IVec S1600000x1 32 :=
  broadcastInDim S1600000x1 ![0] bcast_S1600000_S1600000x1_0 r1

/-- Neighbour aggregation over the two index rows: every node's row plus the sum of its in-neighbours' rows. -/
def aggRows (x : FVec F S100000x128 .f32) (r0 r1 : IVec S1600000 32) : FVec F S100000x128 .f32 :=
  addf x (Host.scatterAdd scatter_S100000x128_S1600000x1_S1600000x128_1_0_0_1
    (broadcastInDim S100000x128 ![] bcast_S_S100000x128 (constant S_ .f32 0x00000000#32))
    (dstCol r1)
    (Host.gather gather_S100000x128_S1600000x1_S1600000x128_1_0_n_n_0_1_1128 x (srcCol r0)))

/-- Neighbour aggregation over the edge table. -/
def agg (x : FVec F S100000x128 .f32) (e : IVec S2x1600000 32) : FVec F S100000x128 .f32 :=
  aggRows x (edgeRow0 e) (edgeRow1 e)

/-- A bias vector as a one-row matrix. -/
def row128 (b : FVec F S128 .f32) : FVec F S1x128 .f32 := broadcastInDim S1x128 ![1] bcast_S128_S1x128_1 b
/-- A 64-vector as a one-row matrix. -/
def row64 (b : FVec F S64 .f32) : FVec F S1x64 .f32 := broadcastInDim S1x64 ![1] bcast_S64_S1x64_1 b

/-- x * w + b with the bias given as a one-row matrix, 128 output features. -/
def dense128r (x : FVec F S100000x128 .f32) (w : FVec F S128x128 .f32) (b : FVec F S1x128 .f32) : FVec F S100000x128 .f32 :=
  addf (Host.dotGeneral dot_S100000x128_S128x128_S100000x128_1_0_0_1_n_n none x w)
    (broadcastInDim S100000x128 ![0, 1] bcast_S1x128_S100000x128_0_1 b)
/-- x * w + b, 64 output features. -/
def dense64r (x : FVec F S100000x128 .f32) (w : FVec F S128x64 .f32) (b : FVec F S1x64 .f32) : FVec F S100000x64 .f32 :=
  addf (Host.dotGeneral dot_S100000x128_S128x64_S100000x64_1_0_0_1_n_n none x w)
    (broadcastInDim S100000x64 ![0, 1] bcast_S1x64_S100000x64_0_1 b)
/-- max(., 0), entry by entry. -/
def relu128 (y : FVec F S100000x128 .f32) : FVec F S100000x128 .f32 :=
  maximumf y (broadcastInDim S100000x128 ![] bcast_S_S100000x128 (constant S_ .f32 0x00000000#32))

/-- The column sums over the nodes divided by the node count. -/
def colMean (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

/-- The deviations from the column mean, the mean taken as a one-row matrix. -/
def centered (h : FVec F S100000x64 .f32) : FVec F S100000x64 .f32 :=
  subf h (broadcastInDim S100000x64 ![0, 1] bcast_S1x64_S100000x64_0_1
    (Host.divf (broadcastInDim S1x64 ![1] bcast_S64_S1x64_1 (Host.reduceAdd h (constant S_ .f32 0x00000000#32) reducesTo_S100000x64_S64_d0 h_S_))
      (broadcastInDim S1x64 ![] bcast_S_S1x64 (constant S_ .f32 0x47C35000#32))))

/-- The node count less the degrees of freedom d: the variance's divisor. -/
def varDivisor (d : IVec S_ 32) : FVec F S_ .f32 :=
  subf (constant S_ .f32 0x47C35000#32) (sitofp .f32 d)

/-- The column variance with d degrees of freedom, as the library function that computes it is printed: the squared
    deviations summed, divided by the count less d, under the guard for a non-positive divisor. -/
def colVarD (h : FVec F S100000x64 .f32) (d : IVec S_ 32) : FVec F S64 .f32 :=
  select
    (broadcastInDim S64 ![] bcast_S_S64 (cmpf .ogt (varDivisor (F := F) d) (constant S_ .f32 0x00000000#32)))
    (Host.divf
      (Host.reduceAdd (mulf (centered h) (centered h)) (constant S_ .f32 0x00000000#32) reducesTo_S100000x64_S64_d0 h_S_)
      (broadcastInDim S64 ![] bcast_S_S64 (varDivisor (F := F) d)))
    (broadcastInDim S64 ![] bcast_S_S64 (id (constant S_ .f32 0x7FC00000#32)))

/-- The biased column variance: zero degrees of freedom. -/
def colVar (h : FVec F S100000x64 .f32) : FVec F S64 .f32 := colVarD h (constantI S_ 32 0#32)

/-- (v + eps)^(-1/2) per column. -/
def rstdOf (v : FVec F S64 .f32) : FVec F S64 .f32 :=
  Host.rsqrt (addf v (broadcastInDim S64 ![] bcast_S_S64 (constant S_ .f32 0x3727C5AC#32)))

/-- (var + eps)^(-1/2) per column. -/
def rstd (h : FVec F S100000x64 .f32) : FVec F S64 .f32 := rstdOf (colVar h)

/-- ((h - mean) * rstd) * gamma + beta with the four per-column vectors given as one-row matrices. -/
def normalizer (h : FVec F S100000x64 .f32) (mean rs gamma beta : FVec F S1x64 .f32) : FVec F S100000x64 .f32 :=
  addf (mulf (mulf (subf h (broadcastInDim S100000x64 ![0, 1] bcast_S1x64_S100000x64_0_1 mean))
        (broadcastInDim S100000x64 ![0, 1] bcast_S1x64_S100000x64_0_1 rs))
      (broadcastInDim S100000x64 ![0, 1] bcast_S1x64_S100000x64_0_1 gamma))
    (broadcastInDim S100000x64 ![0, 1] bcast_S1x64_S100000x64_0_1 beta)

/-- The three aggregated layers: the 64-column array the normalisation is applied to. -/
def hidden (x : FVec F S100000x128 .f32) (e : IVec S2x1600000 32) (W1 : FVec F S128x128 .f32) (b1 : FVec F S128 .f32)
    (Wm : FVec F S128x128 .f32) (bm : FVec F S128 .f32) (W2 : FVec F S128x64 .f32) (b2 : FVec F S64 .f32) : FVec F S100000x64 .f32 :=
  dense64r (agg (relu128 (dense128r (agg (relu128 (dense128r (agg x e) W1 (row128 b1))) e) Wm (row128 bm))) e) W2 (row64 b2)

/-- The whole network: three aggregated layers and the normalisation over the nodes. -/
def out (x : FVec F S100000x128 .f32) (e : IVec S2x1600000 32) (W1 : FVec F S128x128 .f32) (b1 : FVec F S128 .f32)
    (Wm : FVec F S128x128 .f32) (bm : FVec F S128 .f32) (W2 : FVec F S128x64 .f32) (b2 : FVec F S64 .f32)
    (gamma beta : FVec F S64 .f32) : FVec F S100000x64 .f32 :=
  normalizer (hidden x e W1 b1 Wm bm W2 b2) (row64 (colMean (hidden x e W1 b1 Wm bm W2 b2)))
    (row64 (rstd (hidden x e W1 b1 Wm bm W2 b2))) (row64 gamma) (row64 beta)

end Cert.Spec

end
-- ==== Proof.RegionDense0.lean ====
/-
  What the first layer's kernel region leaves in its output array: max(x * w + b, 0) of the arrays it is entered with.

  The region runs over ten grid points. Point t reads rows 10000 t to 10000 t + 9999 of the input, the whole weight
  matrix and the whole bias row, and writes back the same rows of the output. The body's payload at row p and column q
  of a block is max(sum over k of x(p,k) * w(k,q) + b(0,q), 0); the specification's affine layer under max(., 0),
  read at row i and column j, is the same expression of the whole arrays. The ten blocks tile the output array, so
  the array ends holding that function of the arrays the region is entered with.
-/
import proofs.«178634_j77558519431976_1_alg».proof.Proof.Gen.KernelIdeal.Frame
import proofs.«178634_j77558519431976_1_alg».proof.Proof.Gen.ReferenceIdeal
import proofs.«178634_j77558519431976_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.ValueIdx
open Idealize.ShloMosaic.Pipeline (Dat)

/-! ## The block's product: its index maps and its sum over the 128 features -/

theorem lhsK0_0 (j : S10000x128.Idx) (k : dot_S10000x128_S128x128_S10000x128_1_0_0_1_n_n.contr.Idx) :
    (dot_S10000x128_S128x128_S10000x128_1_0_0_1_n_n.lhsIdx j k 0 : ℕ) = j 0 := by
  simp [DotDims.lhsIdx, dot_S10000x128_S128x128_S10000x128_1_0_0_1_n_n]; rfl
theorem lhsK0_1 (j : S10000x128.Idx) (k : dot_S10000x128_S128x128_S10000x128_1_0_0_1_n_n.contr.Idx) :
    (dot_S10000x128_S128x128_S10000x128_1_0_0_1_n_n.lhsIdx j k 1 : ℕ) = k ⟨0, by decide⟩ := by
  simp [DotDims.lhsIdx, dot_S10000x128_S128x128_S10000x128_1_0_0_1_n_n]; rfl
theorem rhsK0_0 (j : S10000x128.Idx) (k : dot_S10000x128_S128x128_S10000x128_1_0_0_1_n_n.contr.Idx) :
    (dot_S10000x128_S128x128_S10000x128_1_0_0_1_n_n.rhsIdx j k 0 : ℕ) = k ⟨0, by decide⟩ := by
  simp [DotDims.rhsIdx, dot_S10000x128_S128x128_S10000x128_1_0_0_1_n_n]; rfl
theorem rhsK0_1 (j : S10000x128.Idx) (k : dot_S10000x128_S128x128_S10000x128_1_0_0_1_n_n.contr.Idx) :
    (dot_S10000x128_S128x128_S10000x128_1_0_0_1_n_n.rhsIdx j k 1 : ℕ) = j 1 := by
  simp [DotDims.rhsIdx, dot_S10000x128_S128x128_S10000x128_1_0_0_1_n_n]; rfl

/-- The contraction index of the block's product is its one coordinate below 128. -/
abbrev cEqK0 : dot_S10000x128_S128x128_S10000x128_1_0_0_1_n_n.contr.Idx ≃ Fin 128 :=
  contrEquiv1 dot_S10000x128_S128x128_S10000x128_1_0_0_1_n_n 128 rfl rfl

/-- The block's matrix product read at row p and column q: the sum over the 128 features. -/
theorem matmulK0_apply (x0 : Vec Ideal S10000x128 .f32) (x1 : Vec Ideal S128x128 .f32) (p : Fin 10000) (q : Fin 128) :
    (∑ k : dot_S10000x128_S128x128_S10000x128_1_0_0_1_n_n.contr.Idx,
        x0 (dot_S10000x128_S128x128_S10000x128_1_0_0_1_n_n.lhsIdx (ix2 p q) k)
          * x1 (dot_S10000x128_S128x128_S10000x128_1_0_0_1_n_n.rhsIdx (ix2 p q) k))
      = ∑ k : Fin 128, x0 (ix2 p k) * x1 (ix2 k q) := by
  rw [← Equiv.sum_comp cEqK0.symm]
  refine Finset.sum_congr rfl fun k _ => ?_
  have hl : dot_S10000x128_S128x128_S10000x128_1_0_0_1_n_n.lhsIdx (ix2 p q) (cEqK0.symm k) = ix2 p k := by
    funext a; apply Fin.ext
    match a with
    | ⟨0, _⟩ => exact lhsK0_0 _ _
    | ⟨1, _⟩ => exact (lhsK0_1 _ _).trans (contrEquiv1_symm_val _ 128 rfl rfl k)
  have hr : dot_S10000x128_S128x128_S10000x128_1_0_0_1_n_n.rhsIdx (ix2 p q) (cEqK0.symm k) = ix2 k q := by
    funext a; apply Fin.ext
    match a with
    | ⟨0, _⟩ => exact (rhsK0_0 _ _).trans (contrEquiv1_symm_val _ 128 rfl rfl k)
    | ⟨1, _⟩ => exact rhsK0_1 _ _
  rw [hl, hr]

/-- The body's payload at row p and column q of the block: max(sum over k of x(p,k) * w(k,q) + b(0,q), 0). -/
theorem pay0_apply (x0 : Vec Ideal S10000x128 .f32) (x1 : Vec Ideal S128x128 .f32) (x2 : Vec Ideal S1x128 .f32)
    (p : Fin 10000) (q : Fin 128) :
    k0_pay1 (F := Ideal) x0 x1 x2 (ix2 p q) = max ((∑ k : Fin 128, x0 (ix2 p k) * x1 (ix2 k q)) + x2 (ix2 (0 : Fin 1) q)) 0 := by
  unfold k0_pay1
  show max ((FloatOps.matmul (F := Ideal) dot_S10000x128_S128x128_S10000x128_1_0_0_1_n_n none
        (truncf (F := Ideal) .bf16 (shapeCast S10000x128 x0 shapeCasts_S10000x128_S10000x128) bitsLt_bf16_f32)
        (truncf (F := Ideal) .bf16 x1 bitsLt_bf16_f32) (constant (F := Ideal) S10000x128 .f32 0x00000000#32) (ix2 p q) : EReal)
      + (broadcastTo S10000x128 (shapeCast S1x128 x2 shapeCasts_S1x128_S1x128) broadcasts_S1x128_S10000x128 (ix2 p q) : EReal))
      (Ideal.ofBits .f32 0x00000000#32) = _
  rw [Ideal.matmul_constant_zero_apply, Ideal.ofBits_zero_f32, shapeCast_self, shapeCast_self,
    broadcastTo_1b_ab_apply]
  exact congrArg (fun s => max (s + x2 (ix2 (0 : Fin 1) q)) 0) (matmulK0_apply x0 x1 p q)

/-! ## The specification read at an index -/

theorem lhsR0_0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 0 : ℕ) = j 0 := by
  simp [DotDims.lhsIdx, Cert.ReferenceIdeal.dot_S100000x128_S128x128_S100000x128_1_0_0_1_n_n]; rfl
theorem lhsR0_1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 1 : ℕ) = k ⟨0, by decide⟩ := by
  simp [DotDims.lhsIdx, Cert.ReferenceIdeal.dot_S100000x128_S128x128_S100000x128_1_0_0_1_n_n]; rfl
theorem rhsR0_0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 0 : ℕ) = k ⟨0, by decide⟩ := by
  simp [DotDims.rhsIdx, Cert.ReferenceIdeal.dot_S100000x128_S128x128_S100000x128_1_0_0_1_n_n]; rfl
theorem rhsR0_1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 1 : ℕ) = j 1 := by
  simp [DotDims.rhsIdx, Cert.ReferenceIdeal.dot_S100000x128_S128x128_S100000x128_1_0_0_1_n_n]; rfl

/-- The contraction index of the whole product is its one coordinate below 128. -/
abbrev cEqR0 : Cert.ReferenceIdeal.dot_S100000x128_S128x128_S100000x128_1_0_0_1_n_n.contr.Idx ≃ Fin 128 :=
  contrEquiv1 Cert.ReferenceIdeal.dot_S100000x128_S128x128_S100000x128_1_0_0_1_n_n 128 rfl rfl

/-- The whole matrix product read at row i and column j: the sum over the 128 features. -/
theorem dotR0_apply (x : FVec Ideal Cert.ReferenceIdeal.S100000x128 .f32) (w : FVec Ideal Cert.ReferenceIdeal.S128x128 .f32)
    (i : Fin 100000) (j : Fin 128) :
    (∑ k : Cert.ReferenceIdeal.dot_S100000x128_S128x128_S100000x128_1_0_0_1_n_n.contr.Idx,
        x (Cert.ReferenceIdeal.dot_S100000x128_S128x128_S100000x128_1_0_0_1_n_n.lhsIdx (ix2 i j) k)
          * w (Cert.ReferenceIdeal.dot_S100000x128_S128x128_S100000x128_1_0_0_1_n_n.rhsIdx (ix2 i j) k))
      = ∑ k : Fin 128, x (ix2 i k) * w (ix2 k j) := by
  rw [← Equiv.sum_comp cEqR0.symm]
  refine Finset.sum_congr rfl fun k _ => ?_
  have hl : Cert.ReferenceIdeal.dot_S100000x128_S128x128_S100000x128_1_0_0_1_n_n.lhsIdx (ix2 i j) (cEqR0.symm k) = ix2 i k := by
    funext a; apply Fin.ext
    match a with
    | ⟨0, _⟩ => exact lhsR0_0 _ _
    | ⟨1, _⟩ => exact (lhsR0_1 _ _).trans (contrEquiv1_symm_val _ 128 rfl rfl k)
  have hr : Cert.ReferenceIdeal.dot_S100000x128_S128x128_S100000x128_1_0_0_1_n_n.rhsIdx (ix2 i j) (cEqR0.symm k) = ix2 k j := by
    funext a; apply Fin.ext
    match a with
    | ⟨0, _⟩ => exact (rhsR0_0 _ _).trans (contrEquiv1_symm_val _ 128 rfl rfl k)
    | ⟨1, _⟩ => exact rhsR0_1 _ _
  rw [hl, hr]

/-- The layer's value at node row i and feature j. -/
def layerAt0 (x : FVec Ideal Cert.ReferenceIdeal.S100000x128 .f32) (w : FVec Ideal Cert.ReferenceIdeal.S128x128 .f32)
    (b : FVec Ideal Cert.ReferenceIdeal.S1x128 .f32) : FVec Ideal Cert.ReferenceIdeal.S100000x128 .f32 :=
  fun i => max ((∑ k : Fin 128, x (ix2 (i 0) k) * w (ix2 k (i 1))) + b (ix2 (0 : Fin 1) (i 1))) 0

/-- The specification's affine layer under max(., 0) is that function, index by index. -/
theorem spec0_eq (x : FVec Ideal Cert.ReferenceIdeal.S100000x128 .f32) (w : FVec Ideal Cert.ReferenceIdeal.S128x128 .f32)
    (b : FVec Ideal Cert.ReferenceIdeal.S1x128 .f32) :
    Cert.Spec.relu128 (F := Ideal) (Cert.Spec.dense128r x w b) = layerAt0 x w b := by
  funext i0
  obtain ⟨i, j, rfl⟩ : ∃ (i : Fin 100000) (j : Fin 128), i0 = ix2 i j := ⟨i0 0, i0 1, eq_ix2 i0⟩
  unfold Cert.Spec.relu128 Cert.Spec.dense128r layerAt0
  rw [maximumf_apply, addf_apply, broadcastInDim_scalar_apply, constant_apply, Ideal.ofBits_zero_f32,
    broadcastInDim_oneRow_apply]
  simp only [Host.dotGeneral]
  rw [Ideal.dotGeneral_apply, dotR0_apply]

/-! ## From the blocks to the array -/

/-- The payload at (p, q) of a block whose rows are the array's rows from i on, against the whole weight and bias row,
    is the layer's value at (i, q). -/
theorem pointVal0 (x0 : Vec Ideal S10000x128 .f32) (x1 : Vec Ideal S128x128 .f32) (x2 : Vec Ideal S1x128 .f32)
    (X : FVec Ideal Cert.ReferenceIdeal.S100000x128 .f32) (W : FVec Ideal Cert.ReferenceIdeal.S128x128 .f32)
    (B : FVec Ideal Cert.ReferenceIdeal.S1x128 .f32) (p : Fin 10000) (q : Fin 128) (i : Fin 100000)
    (h0 : ∀ k : Fin 128, x0 (ix2 p k) = X (ix2 i k))
    (h1 : ∀ k : Fin 128, x1 (ix2 k q) = W (ix2 k q))
    (h2 : x2 (ix2 (0 : Fin 1) q) = B (ix2 (0 : Fin 1) q)) :
    k0_pay1 (F := Ideal) x0 x1 x2 (ix2 p q) = layerAt0 X W B (ix2 i q) := by
  rw [pay0_apply]
  show _ = max ((∑ k : Fin 128, X (ix2 i k) * W (ix2 k q)) + B (ix2 (0 : Fin 1) q)) 0
  have hs : (∑ k : Fin 128, x0 (ix2 p k) * x1 (ix2 k q)) = ∑ k : Fin 128, X (ix2 i k) * W (ix2 k q) :=
    Finset.sum_congr rfl fun k _ => by rw [h0 k, h1 k]
  rw [hs, h2]

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the input rows and the output rows move together, block t at point t;
    the weight and the bias row stay at block 0. -/
theorem idxFacts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer's value of the arrays the region is entered with. -/
theorem flushed0_eq (c : Dev nD) (t : Fin cfg0.N) :
    (dat0 (F := Ideal) V c).flushed 3 t
      = ((cfg0.win 3).blk t).view.read (Elt Ideal) (layerAt0 (V c main_v14) (V c main_arg2) (V c main_v15)) := by
  show (cfg0.win 3).cut (grid0.coords t) ((dat0 (F := Ideal) V c).after 3 t) = _
  rw [after0_3]
  unfold out0_3
  rw [View.canon_unit_zero hz0]
  simp only [View.ld_unit_zero (S := S10000x128) hz0, View.ld_unit_zero (S := S128x128) hz0, View.ld_unit_zero (S := S1x128) hz0]
  funext y
  have hp : (y 0).val < 10000 := (y 0).isLt
  have hq : (y 1).val < 128 := (y 1).isLt
  have ht : t.val < 10 := lt_of_lt_of_eq t.isLt N_0
  obtain ⟨e0, e1, e2, e3, e4, e5, e6, e7⟩ := idxFacts0 t
  have eL : (win0 3).xinj (grid0.coords t) y = ix2 (⟨(y 0).val, hp⟩ : Fin 10000) (⟨(y 1).val, hq⟩ : Fin 128) := by
    funext a
    match a with
    | ⟨0, _⟩ => rfl
    | ⟨1, _⟩ => rfl
  have eR : ((View.whole main_v16).slice ((win0 3).rect t)).emb y
      = ix2 (⟨t.val * 10000 + (y 0).val, by omega⟩ : Fin 100000) (⟨(y 1).val, hq⟩ : Fin 128) := by
    funext a; apply Fin.ext
    match a with
    | ⟨0, _⟩ => show win0_3.index t (0 : Fin 2) * 10000 + 1 * (y 0).val = t.val * 10000 + (y 0).val; omega
    | ⟨1, _⟩ => show win0_3.index t (1 : Fin 2) * 128 + 1 * (y 1).val = (y 1).val; omega
  show k0_pay1 (F := Ideal) (iblk0 V c 0 t) (iblk0 V c 1 t) (iblk0 V c 2 t) ((win0 3).xinj (grid0.coords t) y)
      = layerAt0 (V c main_v14) (V c main_arg2) (V c main_v15) (((View.whole main_v16).slice ((win0 3).rect t)).emb y)
  rw [eL, eR]
  refine pointVal0 (iblk0 V c 0 t) (iblk0 V c 1 t) (iblk0 V c 2 t) (V c main_v14) (V c main_arg2) (V c main_v15)
    _ _ _ (fun k => ?_) (fun k => ?_) ?_
  · show V c main_v14 (((cfg0.win 0).blk t).view.emb (ix2 (⟨(y 0).val, hp⟩ : Fin 10000) k)) = V c main_v14 _
    refine congrArg (V c main_v14) (funext fun a => Fin.ext ?_)
    match a with
    | ⟨0, _⟩ => show win0_0.index t (0 : Fin 2) * 10000 + 1 * (y 0).val = t.val * 10000 + (y 0).val; omega
    | ⟨1, _⟩ => show win0_0.index t (1 : Fin 2) * 128 + 1 * k.val = k.val; omega
  · show V c main_arg2 (((cfg0.win 1).blk t).view.emb (ix2 k (⟨(y 1).val, hq⟩ : Fin 128))) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (y 1).val = (y 1).val; omega
  · show V c main_v15 (((cfg0.win 2).blk t).view.emb (ix2 (0 : Fin 1) (⟨(y 1).val, hq⟩ : Fin 128))) = V c main_v15 _
    refine congrArg (V c main_v15) (funext fun a => Fin.ext ?_)
    match a with
    | ⟨0, _⟩ => show win0_2.index t (0 : Fin 2) * 1 + 1 * 0 = 0; omega
    | ⟨1, _⟩ => show win0_2.index t (1 : Fin 2) * 128 + 1 * (y 1).val = (y 1).val; omega

/-- An index of the output array is in point t's block iff each coordinate is in the block's range on its axis. -/
theorem memBlk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v16).slice (win0_3.rect t)).set ↔ _
  rw [View.set_slice_whole, Rect.mem_set_unit]
  exact Iff.rfl

/-- Every row of the output array is written back by some point: row r by point r / 10000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  rw [memBlk0]
  obtain ⟨e0, e1, e2, e3, e4, e5, e6, e7⟩ := idxFacts0 ⟨(i 0).val / 10000, by rw [hN]; omega⟩
  intro a
  match a with
  | ⟨0, _⟩ =>
    show win0_3.index ⟨(i 0).val / 10000, _⟩ (0 : Fin 2) * 10000 ≤ (i 0).val ∧ (i 0).val < win0_3.index ⟨(i 0).val / 10000, _⟩ (0 : Fin 2) * 10000 + 10000
    rw [e6]
    show (i 0).val / 10000 * 10000 ≤ (i 0).val ∧ (i 0).val < (i 0).val / 10000 * 10000 + 10000
    omega
  | ⟨1, _⟩ =>
    show win0_3.index ⟨(i 0).val / 10000, _⟩ (1 : Fin 2) * 128 ≤ (i 1).val ∧ (i 1).val < win0_3.index ⟨(i 0).val / 10000, _⟩ (1 : Fin 2) * 128 + 128
    rw [e7]
    omega

/-- After the region the output array is the layer's value of the arrays the region is entered with. -/
theorem final0 (c : Dev nD) :
    (dat0 (F := Ideal) V c).arrAt 3 cfg0.N = layerAt0 (V c main_v14) (V c main_arg2) (V c main_v15) :=
  (dat0 (F := Ideal) V c).arrAt_eq_of_cover 3 (layerAt0 (V c main_v14) (V c main_arg2) (V c main_v15))
    (fun t _ => flushed0_eq V c t) cover0

theorem dense0_value (c : Dev nD) :
    ((dat0 (F := Ideal) V c).arrAt 3 cfg0.N : FVec Ideal S100000x128 .f32)
      = Cert.Spec.relu128 (F := Ideal) (Cert.Spec.dense128r (V c main_v14) (V c main_arg2) (V c main_v15)) := by
  rw [spec0_eq]
  exact final0 V c

end Cert.KernelIdeal.Regions

end
-- ==== Proof.RegionDense1.lean ====
/-
  What the second layer's kernel region leaves in its output array: max(x * w + b, 0) of the arrays it is entered with.

  The region runs over ten grid points. Point t reads rows 10000 t to 10000 t + 9999 of the input, the whole weight
  matrix and the whole bias row, and writes back the same rows of the output. The body's payload at row p and column q
  of a block is max(sum over k of x(p,k) * w(k,q) + b(0,q), 0); the specification's affine layer under max(., 0),
  read at row i and column j, is the same expression of the whole arrays. The ten blocks tile the output array, so
  the array ends holding that function of the arrays the region is entered with.
-/
import proofs.«178634_j77558519431976_1_alg».proof.Proof.Gen.KernelIdeal.Frame
import proofs.«178634_j77558519431976_1_alg».proof.Proof.Gen.ReferenceIdeal
import proofs.«178634_j77558519431976_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.ValueIdx
open Idealize.ShloMosaic.Pipeline (Dat)

/-! ## The block's product: its index maps and its sum over the 128 features -/

theorem lhsK1_0 (j : S10000x128.Idx) (k : dot_S10000x128_S128x128_S10000x128_1_0_0_1_n_n.contr.Idx) :
    (dot_S10000x128_S128x128_S10000x128_1_0_0_1_n_n.lhsIdx j k 0 : ℕ) = j 0 := by
  simp [DotDims.lhsIdx, dot_S10000x128_S128x128_S10000x128_1_0_0_1_n_n]; rfl
theorem lhsK1_1 (j : S10000x128.Idx) (k : dot_S10000x128_S128x128_S10000x128_1_0_0_1_n_n.contr.Idx) :
    (dot_S10000x128_S128x128_S10000x128_1_0_0_1_n_n.lhsIdx j k 1 : ℕ) = k ⟨0, by decide⟩ := by
  simp [DotDims.lhsIdx, dot_S10000x128_S128x128_S10000x128_1_0_0_1_n_n]; rfl
theorem rhsK1_0 (j : S10000x128.Idx) (k : dot_S10000x128_S128x128_S10000x128_1_0_0_1_n_n.contr.Idx) :
    (dot_S10000x128_S128x128_S10000x128_1_0_0_1_n_n.rhsIdx j k 0 : ℕ) = k ⟨0, by decide⟩ := by
  simp [DotDims.rhsIdx, dot_S10000x128_S128x128_S10000x128_1_0_0_1_n_n]; rfl
theorem rhsK1_1 (j : S10000x128.Idx) (k : dot_S10000x128_S128x128_S10000x128_1_0_0_1_n_n.contr.Idx) :
    (dot_S10000x128_S128x128_S10000x128_1_0_0_1_n_n.rhsIdx j k 1 : ℕ) = j 1 := by
  simp [DotDims.rhsIdx, dot_S10000x128_S128x128_S10000x128_1_0_0_1_n_n]; rfl

/-- The contraction index of the block's product is its one coordinate below 128. -/
abbrev cEqK1 : dot_S10000x128_S128x128_S10000x128_1_0_0_1_n_n.contr.Idx ≃ Fin 128 :=
  contrEquiv1 dot_S10000x128_S128x128_S10000x128_1_0_0_1_n_n 128 rfl rfl

/-- The block's matrix product read at row p and column q: the sum over the 128 features. -/
theorem matmulK1_apply (x0 : Vec Ideal S10000x128 .f32) (x1 : Vec Ideal S128x128 .f32) (p : Fin 10000) (q : Fin 128) :
    (∑ k : dot_S10000x128_S128x128_S10000x128_1_0_0_1_n_n.contr.Idx,
        x0 (dot_S10000x128_S128x128_S10000x128_1_0_0_1_n_n.lhsIdx (ix2 p q) k)
          * x1 (dot_S10000x128_S128x128_S10000x128_1_0_0_1_n_n.rhsIdx (ix2 p q) k))
      = ∑ k : Fin 128, x0 (ix2 p k) * x1 (ix2 k q) := by
  rw [← Equiv.sum_comp cEqK1.symm]
  refine Finset.sum_congr rfl fun k _ => ?_
  have hl : dot_S10000x128_S128x128_S10000x128_1_0_0_1_n_n.lhsIdx (ix2 p q) (cEqK1.symm k) = ix2 p k := by
    funext a; apply Fin.ext
    match a with
    | ⟨0, _⟩ => exact lhsK1_0 _ _
    | ⟨1, _⟩ => exact (lhsK1_1 _ _).trans (contrEquiv1_symm_val _ 128 rfl rfl k)
  have hr : dot_S10000x128_S128x128_S10000x128_1_0_0_1_n_n.rhsIdx (ix2 p q) (cEqK1.symm k) = ix2 k q := by
    funext a; apply Fin.ext
    match a with
    | ⟨0, _⟩ => exact (rhsK1_0 _ _).trans (contrEquiv1_symm_val _ 128 rfl rfl k)
    | ⟨1, _⟩ => exact rhsK1_1 _ _
  rw [hl, hr]

/-- The body's payload at row p and column q of the block: max(sum over k of x(p,k) * w(k,q) + b(0,q), 0). -/
theorem pay1_apply (x0 : Vec Ideal S10000x128 .f32) (x1 : Vec Ideal S128x128 .f32) (x2 : Vec Ideal S1x128 .f32)
    (p : Fin 10000) (q : Fin 128) :
    k1_pay1 (F := Ideal) x0 x1 x2 (ix2 p q) = max ((∑ k : Fin 128, x0 (ix2 p k) * x1 (ix2 k q)) + x2 (ix2 (0 : Fin 1) q)) 0 := by
  unfold k1_pay1
  show max ((FloatOps.matmul (F := Ideal) dot_S10000x128_S128x128_S10000x128_1_0_0_1_n_n none
        (truncf (F := Ideal) .bf16 (shapeCast S10000x128 x0 shapeCasts_S10000x128_S10000x128) bitsLt_bf16_f32)
        (truncf (F := Ideal) .bf16 x1 bitsLt_bf16_f32) (constant (F := Ideal) S10000x128 .f32 0x00000000#32) (ix2 p q) : EReal)
      + (broadcastTo S10000x128 (shapeCast S1x128 x2 shapeCasts_S1x128_S1x128) broadcasts_S1x128_S10000x128 (ix2 p q) : EReal))
      (Ideal.ofBits .f32 0x00000000#32) = _
  rw [Ideal.matmul_constant_zero_apply, Ideal.ofBits_zero_f32, shapeCast_self, shapeCast_self,
    broadcastTo_1b_ab_apply]
  exact congrArg (fun s => max (s + x2 (ix2 (0 : Fin 1) q)) 0) (matmulK1_apply x0 x1 p q)

/-! ## The specification read at an index -/

theorem lhsR1_0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 0 : ℕ) = j 0 := by
  simp [DotDims.lhsIdx, Cert.ReferenceIdeal.dot_S100000x128_S128x128_S100000x128_1_0_0_1_n_n]; rfl
theorem lhsR1_1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx j k 1 : ℕ) = k ⟨0, by decide⟩ := by
  simp [DotDims.lhsIdx, Cert.ReferenceIdeal.dot_S100000x128_S128x128_S100000x128_1_0_0_1_n_n]; rfl
theorem rhsR1_0 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 0 : ℕ) = k ⟨0, by decide⟩ := by
  simp [DotDims.rhsIdx, Cert.ReferenceIdeal.dot_S100000x128_S128x128_S100000x128_1_0_0_1_n_n]; rfl
theorem rhsR1_1 (j : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx j k 1 : ℕ) = j 1 := by
  simp [DotDims.rhsIdx, Cert.ReferenceIdeal.dot_S100000x128_S128x128_S100000x128_1_0_0_1_n_n]; rfl

/-- The contraction index of the whole product is its one coordinate below 128. -/
abbrev cEqR1 : Cert.ReferenceIdeal.dot_S100000x128_S128x128_S100000x128_1_0_0_1_n_n.contr.Idx ≃ Fin 128 :=
  contrEquiv1 Cert.ReferenceIdeal.dot_S100000x128_S128x128_S100000x128_1_0_0_1_n_n 128 rfl rfl

/-- The whole matrix product read at row i and column j: the sum over the 128 features. -/
theorem dotR1_apply (x : FVec Ideal Cert.ReferenceIdeal.S100000x128 .f32) (w : FVec Ideal Cert.ReferenceIdeal.S128x128 .f32)
    (i : Fin 100000) (j : Fin 128) :
    (∑ k : Cert.ReferenceIdeal.dot_S100000x128_S128x128_S100000x128_1_0_0_1_n_n.contr.Idx,
        x (Cert.ReferenceIdeal.dot_S100000x128_S128x128_S100000x128_1_0_0_1_n_n.lhsIdx (ix2 i j) k)
          * w (Cert.ReferenceIdeal.dot_S100000x128_S128x128_S100000x128_1_0_0_1_n_n.rhsIdx (ix2 i j) k))
      = ∑ k : Fin 128, x (ix2 i k) * w (ix2 k j) := by
  rw [← Equiv.sum_comp cEqR1.symm]
  refine Finset.sum_congr rfl fun k _ => ?_
  have hl : Cert.ReferenceIdeal.dot_S100000x128_S128x128_S100000x128_1_0_0_1_n_n.lhsIdx (ix2 i j) (cEqR1.symm k) = ix2 i k := by
    funext a; apply Fin.ext
    match a with
    | ⟨0, _⟩ => exact lhsR1_0 _ _
    | ⟨1, _⟩ => exact (lhsR1_1 _ _).trans (contrEquiv1_symm_val _ 128 rfl rfl k)
  have hr : Cert.ReferenceIdeal.dot_S100000x128_S128x128_S100000x128_1_0_0_1_n_n.rhsIdx (ix2 i j) (cEqR1.symm k) = ix2 k j := by
    funext a; apply Fin.ext
    match a with
    | ⟨0, _⟩ => exact (rhsR1_0 _ _).trans (contrEquiv1_symm_val _ 128 rfl rfl k)
    | ⟨1, _⟩ => exact rhsR1_1 _ _
  rw [hl, hr]

/-- The layer's value at node row i and feature j. -/
def layerAt1 (x : FVec Ideal Cert.ReferenceIdeal.S100000x128 .f32) (w : FVec Ideal Cert.ReferenceIdeal.S128x128 .f32)
    (b : FVec Ideal Cert.ReferenceIdeal.S1x128 .f32) : FVec Ideal Cert.ReferenceIdeal.S100000x128 .f32 :=
  fun i => max ((∑ k : Fin 128, x (ix2 (i 0) k) * w (ix2 k (i 1))) + b (ix2 (0 : Fin 1) (i 1))) 0

/-- The specification's affine layer under max(., 0) is that function, index by index. -/
theorem spec1_eq (x : FVec Ideal Cert.ReferenceIdeal.S100000x128 .f32) (w : FVec Ideal Cert.ReferenceIdeal.S128x128 .f32)
    (b : FVec Ideal Cert.ReferenceIdeal.S1x128 .f32) :
    Cert.Spec.relu128 (F := Ideal) (Cert.Spec.dense128r x w b) = layerAt1 x w b := by
  funext i0
  obtain ⟨i, j, rfl⟩ : ∃ (i : Fin 100000) (j : Fin 128), i0 = ix2 i j := ⟨i0 0, i0 1, eq_ix2 i0⟩
  unfold Cert.Spec.relu128 Cert.Spec.dense128r layerAt1
  rw [maximumf_apply, addf_apply, broadcastInDim_scalar_apply, constant_apply, Ideal.ofBits_zero_f32,
    broadcastInDim_oneRow_apply]
  simp only [Host.dotGeneral]
  rw [Ideal.dotGeneral_apply, dotR1_apply]

/-! ## From the blocks to the array -/

/-- The payload at (p, q) of a block whose rows are the array's rows from i on, against the whole weight and bias row,
    is the layer's value at (i, q). -/
theorem pointVal1 (x0 : Vec Ideal S10000x128 .f32) (x1 : Vec Ideal S128x128 .f32) (x2 : Vec Ideal S1x128 .f32)
    (X : FVec Ideal Cert.ReferenceIdeal.S100000x128 .f32) (W : FVec Ideal Cert.ReferenceIdeal.S128x128 .f32)
    (B : FVec Ideal Cert.ReferenceIdeal.S1x128 .f32) (p : Fin 10000) (q : Fin 128) (i : Fin 100000)
    (h0 : ∀ k : Fin 128, x0 (ix2 p k) = X (ix2 i k))
    (h1 : ∀ k : Fin 128, x1 (ix2 k q) = W (ix2 k q))
    (h2 : x2 (ix2 (0 : Fin 1) q) = B (ix2 (0 : Fin 1) q)) :
    k1_pay1 (F := Ideal) x0 x1 x2 (ix2 p q) = layerAt1 X W B (ix2 i q) := by
  rw [pay1_apply]
  show _ = max ((∑ k : Fin 128, X (ix2 i k) * W (ix2 k q)) + B (ix2 (0 : Fin 1) q)) 0
  have hs : (∑ k : Fin 128, x0 (ix2 p k) * x1 (ix2 k q)) = ∑ k : Fin 128, X (ix2 i k) * W (ix2 k q) :=
    Finset.sum_congr rfl fun k _ => by rw [h0 k, h1 k]
  rw [hs, h2]

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the input rows and the output rows move together, block t at point t;
    the weight and the bias row stay at block 0. -/
theorem idxFacts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer's value of the arrays the region is entered with. -/
theorem flushed1_eq (c : Dev nD) (t : Fin cfg1.N) :
    (dat1 (F := Ideal) V c).flushed 3 t
      = ((cfg1.win 3).blk t).view.read (Elt Ideal) (layerAt1 (V c main_v27) (V c main_arg4) (V c main_v28)) := by
  show (cfg1.win 3).cut (grid1.coords t) ((dat1 (F := Ideal) V c).after 3 t) = _
  rw [after1_3]
  unfold out1_3
  rw [View.canon_unit_zero hz1]
  simp only [View.ld_unit_zero (S := S10000x128) hz1, View.ld_unit_zero (S := S128x128) hz1, View.ld_unit_zero (S := S1x128) hz1]
  funext y
  have hp : (y 0).val < 10000 := (y 0).isLt
  have hq : (y 1).val < 128 := (y 1).isLt
  have ht : t.val < 10 := lt_of_lt_of_eq t.isLt N_1
  obtain ⟨e0, e1, e2, e3, e4, e5, e6, e7⟩ := idxFacts1 t
  have eL : (win1 3).xinj (grid1.coords t) y = ix2 (⟨(y 0).val, hp⟩ : Fin 10000) (⟨(y 1).val, hq⟩ : Fin 128) := by
    funext a
    match a with
    | ⟨0, _⟩ => rfl
    | ⟨1, _⟩ => rfl
  have eR : ((View.whole main_v29).slice ((win1 3).rect t)).emb y
      = ix2 (⟨t.val * 10000 + (y 0).val, by omega⟩ : Fin 100000) (⟨(y 1).val, hq⟩ : Fin 128) := by
    funext a; apply Fin.ext
    match a with
    | ⟨0, _⟩ => show win1_3.index t (0 : Fin 2) * 10000 + 1 * (y 0).val = t.val * 10000 + (y 0).val; omega
    | ⟨1, _⟩ => show win1_3.index t (1 : Fin 2) * 128 + 1 * (y 1).val = (y 1).val; omega
  show k1_pay1 (F := Ideal) (iblk1 V c 0 t) (iblk1 V c 1 t) (iblk1 V c 2 t) ((win1 3).xinj (grid1.coords t) y)
      = layerAt1 (V c main_v27) (V c main_arg4) (V c main_v28) (((View.whole main_v29).slice ((win1 3).rect t)).emb y)
  rw [eL, eR]
  refine pointVal1 (iblk1 V c 0 t) (iblk1 V c 1 t) (iblk1 V c 2 t) (V c main_v27) (V c main_arg4) (V c main_v28)
    _ _ _ (fun k => ?_) (fun k => ?_) ?_
  · show V c main_v27 (((cfg1.win 0).blk t).view.emb (ix2 (⟨(y 0).val, hp⟩ : Fin 10000) k)) = V c main_v27 _
    refine congrArg (V c main_v27) (funext fun a => Fin.ext ?_)
    match a with
    | ⟨0, _⟩ => show win1_0.index t (0 : Fin 2) * 10000 + 1 * (y 0).val = t.val * 10000 + (y 0).val; omega
    | ⟨1, _⟩ => show win1_0.index t (1 : Fin 2) * 128 + 1 * k.val = k.val; omega
  · show V c main_arg4 (((cfg1.win 1).blk t).view.emb (ix2 k (⟨(y 1).val, hq⟩ : Fin 128))) = V c main_arg4 _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 128 + 1 * (y 1).val = (y 1).val; omega
  · show V c main_v28 (((cfg1.win 2).blk t).view.emb (ix2 (0 : Fin 1) (⟨(y 1).val, hq⟩ : Fin 128))) = V c main_v28 _
    refine congrArg (V c main_v28) (funext fun a => Fin.ext ?_)
    match a with
    | ⟨0, _⟩ => show win1_2.index t (0 : Fin 2) * 1 + 1 * 0 = 0; omega
    | ⟨1, _⟩ => show win1_2.index t (1 : Fin 2) * 128 + 1 * (y 1).val = (y 1).val; omega

/-- An index of the output array is in point t's block iff each coordinate is in the block's range on its axis. -/
theorem memBlk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v29).slice (win1_3.rect t)).set ↔ _
  rw [View.set_slice_whole, Rect.mem_set_unit]
  exact Iff.rfl

/-- Every row of the output array is written back by some point: row r by point r / 10000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_3 _, ?_⟩
  rw [memBlk1]
  obtain ⟨e0, e1, e2, e3, e4, e5, e6, e7⟩ := idxFacts1 ⟨(i 0).val / 10000, by rw [hN]; omega⟩
  intro a
  match a with
  | ⟨0, _⟩ =>
    show win1_3.index ⟨(i 0).val / 10000, _⟩ (0 : Fin 2) * 10000 ≤ (i 0).val ∧ (i 0).val < win1_3.index ⟨(i 0).val / 10000, _⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, _⟩ (1 : Fin 2) * 128 ≤ (i 1).val ∧ (i 1).val < win1_3.index ⟨(i 0).val / 10000, _⟩ (1 : Fin 2) * 128 + 128
    rw [e7]
    omega

/-- After the region the output array is the layer's value of the arrays the region is entered with. -/
theorem final1 (c : Dev nD) :
    (dat1 (F := Ideal) V c).arrAt 3 cfg1.N = layerAt1 (V c main_v27) (V c main_arg4) (V c main_v28) :=
  (dat1 (F := Ideal) V c).arrAt_eq_of_cover 3 (layerAt1 (V c main_v27) (V c main_arg4) (V c main_v28))
    (fun t _ => flushed1_eq V c t) cover1

theorem dense1_value (c : Dev nD) :
    ((dat1 (F := Ideal) V c).arrAt 3 cfg1.N : FVec Ideal S100000x128 .f32)
      = Cert.Spec.relu128 (F := Ideal) (Cert.Spec.dense128r (V c main_v27) (V c main_arg4) (V c main_v28)) := by
  rw [spec1_eq]
  exact final1 V c

end Cert.KernelIdeal.Regions

end
-- ==== Proof.RegionDense2.lean ====
/-
  What the third layer's kernel region leaves in its output array: x * w + b of the arrays it is entered with.

  The region runs over ten grid points. Point t reads rows 10000 t to 10000 t + 9999 of the 128-column input, the whole
  128 by 64 weight matrix and the whole 64-entry bias row, and writes back the same rows of the 64-column output. The
  body's payload at row p and column q of a block is the sum over k of x(p,k) * w(k,q), plus b(0,q); the
  specification's affine layer, read at row i and column j, is the same expression of the whole arrays. The ten blocks
  tile the output array, so the array ends holding that function of the arrays the region is entered with.
-/
import proofs.«178634_j77558519431976_1_alg».proof.Proof.Gen.KernelIdeal.Frame
import proofs.«178634_j77558519431976_1_alg».proof.Proof.Gen.ReferenceIdeal
import proofs.«178634_j77558519431976_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.ValueIdx
open Idealize.ShloMosaic.Pipeline (Dat)

/-! ## The block's product: its index maps and its sum over the 128 features -/

theorem lhsK2_0 (j : S10000x64.Idx) (k : dot_S10000x128_S128x64_S10000x64_1_0_0_1_n_n.contr.Idx) :
    (dot_S10000x128_S128x64_S10000x64_1_0_0_1_n_n.lhsIdx j k 0 : ℕ) = j 0 := by
  simp [DotDims.lhsIdx, dot_S10000x128_S128x64_S10000x64_1_0_0_1_n_n]; rfl
theorem lhsK2_1 (j : S10000x64.Idx) (k : dot_S10000x128_S128x64_S10000x64_1_0_0_1_n_n.contr.Idx) :
    (dot_S10000x128_S128x64_S10000x64_1_0_0_1_n_n.lhsIdx j k 1 : ℕ) = k ⟨0, by decide⟩ := by
  simp [DotDims.lhsIdx, dot_S10000x128_S128x64_S10000x64_1_0_0_1_n_n]; rfl
theorem rhsK2_0 (j : S10000x64.Idx) (k : dot_S10000x128_S128x64_S10000x64_1_0_0_1_n_n.contr.Idx) :
    (dot_S10000x128_S128x64_S10000x64_1_0_0_1_n_n.rhsIdx j k 0 : ℕ) = k ⟨0, by decide⟩ := by
  simp [DotDims.rhsIdx, dot_S10000x128_S128x64_S10000x64_1_0_0_1_n_n]; rfl
theorem rhsK2_1 (j : S10000x64.Idx) (k : dot_S10000x128_S128x64_S10000x64_1_0_0_1_n_n.contr.Idx) :
    (dot_S10000x128_S128x64_S10000x64_1_0_0_1_n_n.rhsIdx j k 1 : ℕ) = j 1 := by
  simp [DotDims.rhsIdx, dot_S10000x128_S128x64_S10000x64_1_0_0_1_n_n]; rfl

/-- The contraction index of the block's product is its one coordinate below 128. -/
abbrev cEqK2 : dot_S10000x128_S128x64_S10000x64_1_0_0_1_n_n.contr.Idx ≃ Fin 128 :=
  contrEquiv1 dot_S10000x128_S128x64_S10000x64_1_0_0_1_n_n 128 rfl rfl

/-- The block's matrix product read at row p and column q: the sum over the 128 features. -/
theorem matmulK2_apply (x0 : Vec Ideal S10000x128 .f32) (x1 : Vec Ideal S128x64 .f32) (p : Fin 10000) (q : Fin 64) :
    (∑ k : dot_S10000x128_S128x64_S10000x64_1_0_0_1_n_n.contr.Idx,
        x0 (dot_S10000x128_S128x64_S10000x64_1_0_0_1_n_n.lhsIdx (ix2 p q) k)
          * x1 (dot_S10000x128_S128x64_S10000x64_1_0_0_1_n_n.rhsIdx (ix2 p q) k))
      = ∑ k : Fin 128, x0 (ix2 p k) * x1 (ix2 k q) := by
  rw [← Equiv.sum_comp cEqK2.symm]
  refine Finset.sum_congr rfl fun k _ => ?_
  have hl : dot_S10000x128_S128x64_S10000x64_1_0_0_1_n_n.lhsIdx (ix2 p q) (cEqK2.symm k) = ix2 p k := by
    funext a; apply Fin.ext
    match a with
    | ⟨0, _⟩ => exact lhsK2_0 _ _
    | ⟨1, _⟩ => exact (lhsK2_1 _ _).trans (contrEquiv1_symm_val _ 128 rfl rfl k)
  have hr : dot_S10000x128_S128x64_S10000x64_1_0_0_1_n_n.rhsIdx (ix2 p q) (cEqK2.symm k) = ix2 k q := by
    funext a; apply Fin.ext
    match a with
    | ⟨0, _⟩ => exact (rhsK2_0 _ _).trans (contrEquiv1_symm_val _ 128 rfl rfl k)
    | ⟨1, _⟩ => exact rhsK2_1 _ _
  rw [hl, hr]

/-- The body's payload at row p and column q of the block: the sum over k of x(p,k) * w(k,q), plus b(0,q). -/
theorem pay2_apply (x0 : Vec Ideal S10000x128 .f32) (x1 : Vec Ideal S128x64 .f32) (x2 : Vec Ideal S1x64 .f32)
    (p : Fin 10000) (q : Fin 64) :
    k2_pay1 (F := Ideal) x0 x1 x2 (ix2 p q) = (∑ k : Fin 128, x0 (ix2 p k) * x1 (ix2 k q)) + x2 (ix2 (0 : Fin 1) q) := by
  unfold k2_pay1
  show (FloatOps.matmul (F := Ideal) dot_S10000x128_S128x64_S10000x64_1_0_0_1_n_n none
        (truncf (F := Ideal) .bf16 (shapeCast S10000x128 x0 shapeCasts_S10000x128_S10000x128) bitsLt_bf16_f32)
        (truncf (F := Ideal) .bf16 x1 bitsLt_bf16_f32) (constant (F := Ideal) S10000x64 .f32 0x00000000#32) (ix2 p q) : EReal)
      + (broadcastTo S10000x64 (shapeCast S1x64 x2 shapeCasts_S1x64_S1x64) broadcasts_S1x64_S10000x64 (ix2 p q) : EReal) = _
  rw [Ideal.matmul_constant_zero_apply, shapeCast_self, shapeCast_self, broadcastTo_1b_ab_apply]
  exact congrArg (fun s => s + x2 (ix2 (0 : Fin 1) q)) (matmulK2_apply x0 x1 p q)

/-! ## The specification read at an index -/

theorem lhsR2_0 (j : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.lhsIdx j k 0 : ℕ) = j 0 := by
  simp [DotDims.lhsIdx, Cert.ReferenceIdeal.dot_S100000x128_S128x64_S100000x64_1_0_0_1_n_n]; rfl
theorem lhsR2_1 (j : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.lhsIdx j k 1 : ℕ) = k ⟨0, by decide⟩ := by
  simp [DotDims.lhsIdx, Cert.ReferenceIdeal.dot_S100000x128_S128x64_S100000x64_1_0_0_1_n_n]; rfl
theorem rhsR2_0 (j : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.rhsIdx j k 0 : ℕ) = k ⟨0, by decide⟩ := by
  simp [DotDims.rhsIdx, Cert.ReferenceIdeal.dot_S100000x128_S128x64_S100000x64_1_0_0_1_n_n]; rfl
theorem rhsR2_1 (j : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.rhsIdx j k 1 : ℕ) = j 1 := by
  simp [DotDims.rhsIdx, Cert.ReferenceIdeal.dot_S100000x128_S128x64_S100000x64_1_0_0_1_n_n]; rfl

/-- The contraction index of the whole product is its one coordinate below 128. -/
abbrev cEqR2 : Cert.ReferenceIdeal.dot_S100000x128_S128x64_S100000x64_1_0_0_1_n_n.contr.Idx ≃ Fin 128 :=
  contrEquiv1 Cert.ReferenceIdeal.dot_S100000x128_S128x64_S100000x64_1_0_0_1_n_n 128 rfl rfl

/-- The whole matrix product read at row i and column j: the sum over the 128 features. -/
theorem dotR2_apply (x : FVec Ideal Cert.ReferenceIdeal.S100000x128 .f32) (w : FVec Ideal Cert.ReferenceIdeal.S128x64 .f32)
    (i : Fin 100000) (j : Fin 64) :
    (∑ k : Cert.ReferenceIdeal.dot_S100000x128_S128x64_S100000x64_1_0_0_1_n_n.contr.Idx,
        x (Cert.ReferenceIdeal.dot_S100000x128_S128x64_S100000x64_1_0_0_1_n_n.lhsIdx (ix2 i j) k)
          * w (Cert.ReferenceIdeal.dot_S100000x128_S128x64_S100000x64_1_0_0_1_n_n.rhsIdx (ix2 i j) k))
      = ∑ k : Fin 128, x (ix2 i k) * w (ix2 k j) := by
  rw [← Equiv.sum_comp cEqR2.symm]
  refine Finset.sum_congr rfl fun k _ => ?_
  have hl : Cert.ReferenceIdeal.dot_S100000x128_S128x64_S100000x64_1_0_0_1_n_n.lhsIdx (ix2 i j) (cEqR2.symm k) = ix2 i k := by
    funext a; apply Fin.ext
    match a with
    | ⟨0, _⟩ => exact lhsR2_0 _ _
    | ⟨1, _⟩ => exact (lhsR2_1 _ _).trans (contrEquiv1_symm_val _ 128 rfl rfl k)
  have hr : Cert.ReferenceIdeal.dot_S100000x128_S128x64_S100000x64_1_0_0_1_n_n.rhsIdx (ix2 i j) (cEqR2.symm k) = ix2 k j := by
    funext a; apply Fin.ext
    match a with
    | ⟨0, _⟩ => exact (rhsR2_0 _ _).trans (contrEquiv1_symm_val _ 128 rfl rfl k)
    | ⟨1, _⟩ => exact rhsR2_1 _ _
  rw [hl, hr]

/-- The layer's value at node row i and output column j. -/
def layerAt2 (x : FVec Ideal Cert.ReferenceIdeal.S100000x128 .f32) (w : FVec Ideal Cert.ReferenceIdeal.S128x64 .f32)
    (b : FVec Ideal Cert.ReferenceIdeal.S1x64 .f32) : FVec Ideal Cert.ReferenceIdeal.S100000x64 .f32 :=
  fun i => (∑ k : Fin 128, x (ix2 (i 0) k) * w (ix2 k (i 1))) + b (ix2 (0 : Fin 1) (i 1))

/-- The specification's affine layer is that function, index by index. -/
theorem spec2_eq (x : FVec Ideal Cert.ReferenceIdeal.S100000x128 .f32) (w : FVec Ideal Cert.ReferenceIdeal.S128x64 .f32)
    (b : FVec Ideal Cert.ReferenceIdeal.S1x64 .f32) :
    Cert.Spec.dense64r (F := Ideal) x w b = layerAt2 x w b := by
  funext i0
  obtain ⟨i, j, rfl⟩ : ∃ (i : Fin 100000) (j : Fin 64), i0 = ix2 i j := ⟨i0 0, i0 1, eq_ix2 i0⟩
  unfold Cert.Spec.dense64r layerAt2
  rw [addf_apply, broadcastInDim_oneRow_apply]
  simp only [Host.dotGeneral]
  rw [Ideal.dotGeneral_apply, dotR2_apply]

/-! ## From the blocks to the array -/

/-- The payload at (p, q) of a block whose rows are the array's rows from i on, against the whole weight and bias row,
    is the layer's value at (i, q). -/
theorem pointVal2 (x0 : Vec Ideal S10000x128 .f32) (x1 : Vec Ideal S128x64 .f32) (x2 : Vec Ideal S1x64 .f32)
    (X : FVec Ideal Cert.ReferenceIdeal.S100000x128 .f32) (W : FVec Ideal Cert.ReferenceIdeal.S128x64 .f32)
    (B : FVec Ideal Cert.ReferenceIdeal.S1x64 .f32) (p : Fin 10000) (q : Fin 64) (i : Fin 100000)
    (h0 : ∀ k : Fin 128, x0 (ix2 p k) = X (ix2 i k))
    (h1 : ∀ k : Fin 128, x1 (ix2 k q) = W (ix2 k q))
    (h2 : x2 (ix2 (0 : Fin 1) q) = B (ix2 (0 : Fin 1) q)) :
    k2_pay1 (F := Ideal) x0 x1 x2 (ix2 p q) = layerAt2 X W B (ix2 i q) := by
  rw [pay2_apply]
  show _ = (∑ k : Fin 128, X (ix2 i k) * W (ix2 k q)) + B (ix2 (0 : Fin 1) q)
  have hs : (∑ k : Fin 128, x0 (ix2 p k) * x1 (ix2 k q)) = ∑ k : Fin 128, X (ix2 i k) * W (ix2 k q) :=
    Finset.sum_congr rfl fun k _ => by rw [h0 k, h1 k]
  rw [hs, h2]

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input rows and the output rows move together, block t at point t;
    the weight and the bias row stay at block 0. -/
theorem idxFacts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer's value of the arrays the region is entered with. -/
theorem flushed2_eq (c : Dev nD) (t : Fin cfg2.N) :
    (dat2 (F := Ideal) V c).flushed 3 t
      = ((cfg2.win 3).blk t).view.read (Elt Ideal) (layerAt2 (V c main_v40) (V c main_arg6) (V c main_v41)) := by
  show (cfg2.win 3).cut (grid2.coords t) ((dat2 (F := Ideal) V c).after 3 t) = _
  rw [after2_3]
  unfold out2_3
  rw [View.canon_unit_zero hz2]
  simp only [View.ld_unit_zero (S := S10000x128) hz2, View.ld_unit_zero (S := S128x64) hz2, View.ld_unit_zero (S := S1x64) hz2]
  funext y
  have hp : (y 0).val < 10000 := (y 0).isLt
  have hq : (y 1).val < 64 := (y 1).isLt
  have ht : t.val < 10 := lt_of_lt_of_eq t.isLt N_2
  obtain ⟨e0, e1, e2, e3, e4, e5, e6, e7⟩ := idxFacts2 t
  have eL : (win2 3).xinj (grid2.coords t) y = ix2 (⟨(y 0).val, hp⟩ : Fin 10000) (⟨(y 1).val, hq⟩ : Fin 64) := by
    funext a
    match a with
    | ⟨0, _⟩ => rfl
    | ⟨1, _⟩ => rfl
  have eR : ((View.whole main_v42).slice ((win2 3).rect t)).emb y
      = ix2 (⟨t.val * 10000 + (y 0).val, by omega⟩ : Fin 100000) (⟨(y 1).val, hq⟩ : Fin 64) := by
    funext a; apply Fin.ext
    match a with
    | ⟨0, _⟩ => show win2_3.index t (0 : Fin 2) * 10000 + 1 * (y 0).val = t.val * 10000 + (y 0).val; omega
    | ⟨1, _⟩ => show win2_3.index t (1 : Fin 2) * 64 + 1 * (y 1).val = (y 1).val; omega
  show k2_pay1 (F := Ideal) (iblk2 V c 0 t) (iblk2 V c 1 t) (iblk2 V c 2 t) ((win2 3).xinj (grid2.coords t) y)
      = layerAt2 (V c main_v40) (V c main_arg6) (V c main_v41) (((View.whole main_v42).slice ((win2 3).rect t)).emb y)
  rw [eL, eR]
  refine pointVal2 (iblk2 V c 0 t) (iblk2 V c 1 t) (iblk2 V c 2 t) (V c main_v40) (V c main_arg6) (V c main_v41)
    _ _ _ (fun k => ?_) (fun k => ?_) ?_
  · show V c main_v40 (((cfg2.win 0).blk t).view.emb (ix2 (⟨(y 0).val, hp⟩ : Fin 10000) k)) = V c main_v40 _
    refine congrArg (V c main_v40) (funext fun a => Fin.ext ?_)
    match a with
    | ⟨0, _⟩ => show win2_0.index t (0 : Fin 2) * 10000 + 1 * (y 0).val = t.val * 10000 + (y 0).val; omega
    | ⟨1, _⟩ => show win2_0.index t (1 : Fin 2) * 128 + 1 * k.val = k.val; omega
  · show V c main_arg6 (((cfg2.win 1).blk t).view.emb (ix2 k (⟨(y 1).val, hq⟩ : Fin 64))) = V c main_arg6 _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 64 + 1 * (y 1).val = (y 1).val; omega
  · show V c main_v41 (((cfg2.win 2).blk t).view.emb (ix2 (0 : Fin 1) (⟨(y 1).val, hq⟩ : Fin 64))) = V c main_v41 _
    refine congrArg (V c main_v41) (funext fun a => Fin.ext ?_)
    match a with
    | ⟨0, _⟩ => show win2_2.index t (0 : Fin 2) * 1 + 1 * 0 = 0; omega
    | ⟨1, _⟩ => show win2_2.index t (1 : Fin 2) * 64 + 1 * (y 1).val = (y 1).val; omega

/-- An index of the output array is in point t's block iff each coordinate is in the block's range on its axis. -/
theorem memBlk2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v42).slice (win2_3.rect t)).set ↔ _
  rw [View.set_slice_whole, Rect.mem_set_unit]
  exact Iff.rfl

/-- Every row of the output array is written back by some point: row r by point r / 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_3 _, ?_⟩
  rw [memBlk2]
  obtain ⟨e0, e1, e2, e3, e4, e5, e6, e7⟩ := idxFacts2 ⟨(i 0).val / 10000, by rw [hN]; omega⟩
  intro a
  match a with
  | ⟨0, _⟩ =>
    show win2_3.index ⟨(i 0).val / 10000, _⟩ (0 : Fin 2) * 10000 ≤ (i 0).val ∧ (i 0).val < win2_3.index ⟨(i 0).val / 10000, _⟩ (0 : Fin 2) * 10000 + 10000
    rw [e6]
    show (i 0).val / 10000 * 10000 ≤ (i 0).val ∧ (i 0).val < (i 0).val / 10000 * 10000 + 10000
    omega
  | ⟨1, _⟩ =>
    show win2_3.index ⟨(i 0).val / 10000, _⟩ (1 : Fin 2) * 64 ≤ (i 1).val ∧ (i 1).val < win2_3.index ⟨(i 0).val / 10000, _⟩ (1 : Fin 2) * 64 + 64
    rw [e7]
    omega

/-- After the region the output array is the layer's value of the arrays the region is entered with. -/
theorem final2 (c : Dev nD) :
    (dat2 (F := Ideal) V c).arrAt 3 cfg2.N = layerAt2 (V c main_v40) (V c main_arg6) (V c main_v41) :=
  (dat2 (F := Ideal) V c).arrAt_eq_of_cover 3 (layerAt2 (V c main_v40) (V c main_arg6) (V c main_v41))
    (fun t _ => flushed2_eq V c t) cover2

theorem dense2_value (c : Dev nD) :
    ((dat2 (F := Ideal) V c).arrAt 3 cfg2.N : FVec Ideal S100000x64 .f32)
      = Cert.Spec.dense64r (F := Ideal) (V c main_v40) (V c main_arg6) (V c main_v41) := by
  rw [spec2_eq]
  exact final2 V c

end Cert.KernelIdeal.Regions

end
-- ==== Proof.RegionNorm.lean ====
/-
  What the normalisation's kernel region leaves in its output array: ((h - mean) * rstd) * gamma + beta of the arrays it is entered with.
-/
import proofs.«178634_j77558519431976_1_alg».proof.Proof.Gen.KernelIdeal.Frame
import proofs.«178634_j77558519431976_1_alg».proof.Proof.Gen.ReferenceIdeal
import proofs.«178634_j77558519431976_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.ValueIdx

/-- The zero offsets of the body's rectangles, however spelt. -/
theorem hzNorm : (![0, 0] : Fin 2 → Nat) = fun _ => 0 := funext fun a => by fin_cases a <;> rfl

/-- The payload read at row p, column q of its block: the block's entry less the mean row's, times the rstd row's,
    times the gamma row's, plus the beta row's, each row read at column q. -/
theorem pay_applyNorm (x0 : FVec Ideal S10000x64 .f32) (x1 x2 x3 x4 : FVec Ideal S1x64 .f32) (p : Fin 10000) (q : Fin 64) :
    k3_pay1 (F := Ideal) x0 x1 x2 x3 x4 (ix2 p q)
      = ((x0 (ix2 p q) - x1 (ix2 (0 : Fin 1) q)) * x2 (ix2 (0 : Fin 1) q)) * x3 (ix2 (0 : Fin 1) q) + x4 (ix2 (0 : Fin 1) q) := by
  unfold k3_pay1
  simp only [shapeCast_self]
  rw [addf_apply, mulf_apply, mulf_apply, subf_apply]
  rw [broadcastTo_1b_ab_apply x1, broadcastTo_1b_ab_apply x2, broadcastTo_1b_ab_apply x3, broadcastTo_1b_ab_apply x4]

/-- The specification's normaliser read at row r, column q. -/
theorem normalizer_applyNorm (h : FVec Ideal S100000x64 .f32) (mean rs gamma beta : FVec Ideal S1x64 .f32) (r : Fin 100000) (q : Fin 64) :
    Cert.Spec.normalizer (F := Ideal) h mean rs gamma beta (ix2 r q)
      = ((h (ix2 r q) - mean (ix2 (0 : Fin 1) q)) * rs (ix2 (0 : Fin 1) q)) * gamma (ix2 (0 : Fin 1) q) + beta (ix2 (0 : Fin 1) q) := by
  have hb : ∀ v : FVec Ideal S1x64 .f32,
      broadcastInDim Cert.ReferenceIdeal.S100000x64 ![0, 1] Cert.ReferenceIdeal.Facts₀.bcast_S1x64_S100000x64_0_1 v (ix2 r q) = v (ix2 (0 : Fin 1) q) := by
    intro v
    refine broadcastInDim_apply _ _ v (ix2 r q) (ix2 (0 : Fin 1) q) fun a => ?_
    match a with
    | ⟨0, _⟩ => rfl
    | ⟨1, _⟩ => rfl
  unfold Cert.Spec.normalizer
  rw [addf_apply, mulf_apply, mulf_apply, subf_apply, hb, hb, hb, hb]

variable (V : (c : Dev nD) → (b : Ref sig .tc) → Buf (Elt Ideal) ((c : Thread nD τ).loc b))

/-- The whole output array: the specification's normaliser of the five arrays the region is entered with. -/
abbrev arrNorm (c : Dev nD) : FVec Ideal S100000x64 .f32 :=
  Cert.Spec.normalizer (F := Ideal) (V c main_v42) (V c main_v50) (V c main_v51) (V c main_v52) (V c main_v53)

/-- The printed index maps, decided over the grid's ten points: the input h and the output move together, block t
    of rows at point t; the four rows stay at block (0, 0). -/
theorem idx_factsNorm : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The input's block at point t, row p, column q, is the array's row t * 10000 + p, column q. -/
theorem blk_hNorm (c : Dev nD) (t : Fin cfg3.N) (p : Fin 10000) (q : Fin 64) (r : Fin 100000)
    (hr : r.val = t.val * 10000 + p.val) :
    (iblk3 (F := Ideal) V c 0 t : FVec Ideal S10000x64 .f32) (ix2 p q) = (V c main_v42 : FVec Ideal S100000x64 .f32) (ix2 r q) := by
  obtain ⟨e0, e1, -⟩ := idx_factsNorm t
  unfold iblk3
  rw [View.read_apply]
  show (V c main_v42 : FVec Ideal S100000x64 .f32) (((cfg3.win 0).blk t).view.emb (ix2 p q)) = _
  refine congrArg _ (funext fun a => Fin.ext ?_)
  match a with
  | ⟨0, _⟩ => show win3_0.index t (0 : Fin 2) * 10000 + 1 * p.val = r.val; omega
  | ⟨1, _⟩ => show win3_0.index t (1 : Fin 2) * 64 + 1 * q.val = q.val; omega

/-- The mean row's block at any point is the row itself. -/
theorem blk_meanNorm (c : Dev nD) (t : Fin cfg3.N) (q : Fin 64) :
    (iblk3 (F := Ideal) V c 1 t : FVec Ideal S1x64 .f32) (ix2 (0 : Fin 1) q) = (V c main_v50 : FVec Ideal S1x64 .f32) (ix2 (0 : Fin 1) q) := by
  obtain ⟨-, -, e0, e1, -⟩ := idx_factsNorm t
  unfold iblk3
  rw [View.read_apply]
  show (V c main_v50 : FVec Ideal S1x64 .f32) (((cfg3.win 1).blk t).view.emb (ix2 (0 : Fin 1) q)) = _
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- The rstd row's block at any point is the row itself. -/
theorem blk_rstdNorm (c : Dev nD) (t : Fin cfg3.N) (q : Fin 64) :
    (iblk3 (F := Ideal) V c 2 t : FVec Ideal S1x64 .f32) (ix2 (0 : Fin 1) q) = (V c main_v51 : FVec Ideal S1x64 .f32) (ix2 (0 : Fin 1) q) := by
  obtain ⟨-, -, -, -, e0, e1, -⟩ := idx_factsNorm t
  unfold iblk3
  rw [View.read_apply]
  show (V c main_v51 : FVec Ideal S1x64 .f32) (((cfg3.win 2).blk t).view.emb (ix2 (0 : Fin 1) q)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- The gamma row's block at any point is the row itself. -/
theorem blk_gammaNorm (c : Dev nD) (t : Fin cfg3.N) (q : Fin 64) :
    (iblk3 (F := Ideal) V c 3 t : FVec Ideal S1x64 .f32) (ix2 (0 : Fin 1) q) = (V c main_v52 : FVec Ideal S1x64 .f32) (ix2 (0 : Fin 1) q) := by
  obtain ⟨-, -, -, -, -, -, e0, e1, -⟩ := idx_factsNorm t
  unfold iblk3
  rw [View.read_apply]
  show (V c main_v52 : FVec Ideal S1x64 .f32) (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- The beta row's block at any point is the row itself. -/
theorem blk_betaNorm (c : Dev nD) (t : Fin cfg3.N) (q : Fin 64) :
    (iblk3 (F := Ideal) V c 4 t : FVec Ideal S1x64 .f32) (ix2 (0 : Fin 1) q) = (V c main_v53 : FVec Ideal S1x64 .f32) (ix2 (0 : Fin 1) q) := by
  obtain ⟨-, -, -, -, -, -, -, -, e0, e1, -⟩ := idx_factsNorm t
  unfold iblk3
  rw [View.read_apply]
  show (V c main_v53 : FVec Ideal S1x64 .f32) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- What point t writes back is block t of the normaliser of the arrays the region is entered with. -/
theorem flushed_eqNorm (c : Dev nD) (t : Fin cfg3.N) :
    (dat3 (F := Ideal) V c).flushed 5 t = ((cfg3.win 5).blk t).view.read (Elt Ideal) (arrNorm V c) := by
  show (cfg3.win 5).cut (grid3.coords t) ((dat3 V c).after 5 t) = _
  rw [after3_5]
  unfold out3_5
  rw [View.canon_unit_zero hzNorm]
  simp only [View.ld_unit_zero (S := S10000x64) hzNorm, View.ld_unit_zero (S := S1x64) hzNorm]
  obtain ⟨-, -, -, -, -, -, -, -, -, -, e50, e51⟩ := idx_factsNorm t
  have ht : t.val < 10 := by have h := t.isLt; have hN : cfg3.N = 10 := N_3; omega
  funext j
  have hj0 : (j 0).val < 10000 := (j 0).isLt
  have hj1 : (j 1).val < 64 := (j 1).isLt
  -- the block's index by its coordinates, and the array index it sits at
  have hx : (win3 5).xinj (grid3.coords t) j = ix2 (⟨(j 0).val, hj0⟩ : Fin 10000) (⟨(j 1).val, hj1⟩ : Fin 64) := by
    funext a
    match a with
    | ⟨0, _⟩ => rfl
    | ⟨1, _⟩ => rfl
  have hemb : ((cfg3.win 5).blk t).view.emb j
      = ix2 (⟨t.val * 10000 + (j 0).val, by omega⟩ : Fin 100000) (⟨(j 1).val, hj1⟩ : Fin 64) := by
    funext a; apply Fin.ext
    match a with
    | ⟨0, _⟩ => show win3_5.index t (0 : Fin 2) * 10000 + 1 * (j 0).val = t.val * 10000 + (j 0).val; omega
    | ⟨1, _⟩ => show win3_5.index t (1 : Fin 2) * 64 + 1 * (j 1).val = (j 1).val; omega
  show k3_pay1 (F := Ideal) (iblk3 V c 0 t) (iblk3 V c 1 t) (iblk3 V c 2 t) (iblk3 V c 3 t) (iblk3 V c 4 t) ((win3 5).xinj (grid3.coords t) j)
    = arrNorm V c (((cfg3.win 5).blk t).view.emb j)
  refine ((congrArg _ hx).trans (pay_applyNorm (iblk3 V c 0 t) (iblk3 V c 1 t) (iblk3 V c 2 t) (iblk3 V c 3 t) (iblk3 V c 4 t) _ _)).trans ?_
  refine Eq.trans ?_ ((congrArg (arrNorm V c) hemb).trans (normalizer_applyNorm (V c main_v42) (V c main_v50) (V c main_v51) (V c main_v52) (V c main_v53) _ _)).symm
  rw [blk_hNorm V c t ⟨(j 0).val, hj0⟩ ⟨(j 1).val, hj1⟩ ⟨t.val * 10000 + (j 0).val, by omega⟩ rfl,
    blk_meanNorm V c t, blk_rstdNorm V c t, blk_gammaNorm V c t, blk_betaNorm V c t]

/-- An index of the output array is in point t's block iff each coordinate is in the block's range on its axis. -/
theorem mem_blkNorm (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v54).slice (win3_5.rect t)).set ↔ _
  rw [View.set_slice_whole, Rect.mem_set_unit]
  exact Iff.rfl

/-- Every index of the output array is in some point's block: row r is in the block of point r / 10000. -/
theorem coverNorm (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, -, -, -, -, -, -, e50, e51⟩ := idx_factsNorm t
  refine ⟨t, flush3_5 t, ?_⟩
  rw [mem_blkNorm]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

theorem norm_value (c : Dev nD) :
    ((dat3 (F := Ideal) V c).arrAt 5 cfg3.N : FVec Ideal S100000x64 .f32)
      = Cert.Spec.normalizer (F := Ideal) (V c main_v42) (V c main_v50) (V c main_v51) (V c main_v52) (V c main_v53) :=
  (dat3 (F := Ideal) V c).arrAt_eq_of_cover 5 (arrNorm V c) (fun t _ => flushed_eqNorm V c t) (fun i => coverNorm i)

end Cert.KernelIdeal.Regions

end
-- ==== Proof.KValue.lean ====
/-
  The idealized kernel program's result as a function of its argument arrays.

  The program alternates host stretches and four kernel regions. Each host stretch is read through the fold of its
  operations: the first three aggregate the neighbours' rows into the layer's input (the same gather and scatter-add
  the reference performs, over the two index rows computed once by the first stretch) and present the bias as a
  one-row matrix (a reshape of a vector to one row is the broadcast of it along a new unit axis); the last three
  compute the column mean, the biased column variance and (var + eps)^(-1/2) of the third layer's output and present
  them, gamma and beta as one-row matrices. Each region's output array is the dense layer (or the normalisation) of
  the arrays the region is entered with. Composing the boundaries from the launch to the return gives the network
  Spec.out of the ten arguments.
-/
import proofs.«178634_j77558519431976_1_alg».proof.Proof.Gen.KernelIdeal.Frame
import proofs.«178634_j77558519431976_1_alg».proof.Proof.Gen.ReferenceIdeal
import proofs.«178634_j77558519431976_1_alg».proof.Proof.Spec
import proofs.«178634_j77558519431976_1_alg».proof.Proof.RegionDense0
import proofs.«178634_j77558519431976_1_alg».proof.Proof.RegionDense1
import proofs.«178634_j77558519431976_1_alg».proof.Proof.RegionDense2
import proofs.«178634_j77558519431976_1_alg».proof.Proof.RegionNorm
import Idealize.ShloMosaic.Lib.StableHlo.Run
import Idealize.ShloMosaic.Lib.Pipeline.Value

set_option maxRecDepth 16384
-- the local notations below hold dotted identifiers, which the quotation pre-check has no instance for
set_option quotPrecheck false

noncomputable section

namespace Cert.KernelIdeal.KValue

open Cert.KernelIdeal Cert.KernelIdeal.Gen
open Idealize.ShloMosaic Idealize.ShloMosaic.TcCoe Idealize.SL.Sem Idealize.ShloMosaic.StableHlo

local notation "↟" b => (Proc.devRef .tc b : DevRef τ sig)

section Stretches

variable {F : FTy → Type} [FloatOps F]

/-! ## A vector reshaped to one row is its broadcast along a new leading unit axis -/

theorem row128_of_reshape (b : FVec F Cert.ReferenceIdeal.S128 .f32) (h : Cert.ReferenceIdeal.S128.ShapeCasts Cert.ReferenceIdeal.S1x128) :
    shapeCast Cert.ReferenceIdeal.S1x128 b h = Cert.Spec.row128 b := by
  funext j
  refine (shapeCast_addUnit_apply ![128] b h j).trans ?_
  unfold Cert.Spec.row128
  refine (broadcastInDim_apply _ _ b j (fun a => j a.succ) ?_).symm
  intro a
  have ha : a = 0 := Subsingleton.elim _ _
  subst ha
  rfl

theorem row64_of_reshape (b : FVec F Cert.ReferenceIdeal.S64 .f32) (h : Cert.ReferenceIdeal.S64.ShapeCasts Cert.ReferenceIdeal.S1x64) :
    shapeCast Cert.ReferenceIdeal.S1x64 b h = Cert.Spec.row64 b := by
  funext j
  refine (shapeCast_addUnit_apply ![64] b h j).trans ?_
  unfold Cert.Spec.row64
  refine (broadcastInDim_apply _ _ b j (fun a => j a.succ) ?_).symm
  intro a
  have ha : a = 0 := Subsingleton.elim _ _
  subst ha
  rfl

/-! ## The first stretch: the index rows, the first aggregation, the first bias row -/

theorem s0_v14 (V : Valuation τ sig (Elt F)) :
    after hostOps0 V (↟main_v14) = Cert.Spec.agg (F := F) (V (↟main_arg0)) (V (↟main_arg1)) := by
  after_results_simp
  rfl
theorem s0_v15 (V : Valuation τ sig (Elt F)) :
    after hostOps0 V (↟main_v15) = Cert.Spec.row128 (F := F) (V (↟main_arg3)) := by
  after_results_simp
  exact row128_of_reshape _ _
theorem s0_v1 (V : Valuation τ sig (Elt F)) :
    after hostOps0 V (↟main_v1) = Cert.Spec.edgeRow0 (V (↟main_arg1)) := by
  after_results_simp
  rfl
theorem s0_v3 (V : Valuation τ sig (Elt F)) :
    after hostOps0 V (↟main_v3) = Cert.Spec.edgeRow1 (V (↟main_arg1)) := by
  after_results_simp
  rfl
theorem s0_arg2 (V : Valuation τ sig (Elt F)) : after hostOps0 V (↟main_arg2) = V (↟main_arg2) := by after_results_simp
theorem s0_arg4 (V : Valuation τ sig (Elt F)) : after hostOps0 V (↟main_arg4) = V (↟main_arg4) := by after_results_simp
theorem s0_arg5 (V : Valuation τ sig (Elt F)) : after hostOps0 V (↟main_arg5) = V (↟main_arg5) := by after_results_simp
theorem s0_arg6 (V : Valuation τ sig (Elt F)) : after hostOps0 V (↟main_arg6) = V (↟main_arg6) := by after_results_simp
theorem s0_arg7 (V : Valuation τ sig (Elt F)) : after hostOps0 V (↟main_arg7) = V (↟main_arg7) := by after_results_simp
theorem s0_arg8 (V : Valuation τ sig (Elt F)) : after hostOps0 V (↟main_arg8) = V (↟main_arg8) := by after_results_simp
theorem s0_arg9 (V : Valuation τ sig (Elt F)) : after hostOps0 V (↟main_arg9) = V (↟main_arg9) := by after_results_simp

/-! ## The second stretch: the aggregation of the first layer's output, the second bias row -/

theorem s1_v27 (V : Valuation τ sig (Elt F)) :
    after hostOps1 V (↟main_v27) = Cert.Spec.aggRows (F := F) (V (↟main_v16)) (V (↟main_v1)) (V (↟main_v3)) := by
  after_results_simp
  rfl
theorem s1_v28 (V : Valuation τ sig (Elt F)) :
    after hostOps1 V (↟main_v28) = Cert.Spec.row128 (F := F) (V (↟main_arg5)) := by
  after_results_simp
  exact row128_of_reshape _ _
theorem s1_v1 (V : Valuation τ sig (Elt F)) : after hostOps1 V (↟main_v1) = V (↟main_v1) := by after_results_simp
theorem s1_v3 (V : Valuation τ sig (Elt F)) : after hostOps1 V (↟main_v3) = V (↟main_v3) := by after_results_simp
theorem s1_arg4 (V : Valuation τ sig (Elt F)) : after hostOps1 V (↟main_arg4) = V (↟main_arg4) := by after_results_simp
theorem s1_arg6 (V : Valuation τ sig (Elt F)) : after hostOps1 V (↟main_arg6) = V (↟main_arg6) := by after_results_simp
theorem s1_arg7 (V : Valuation τ sig (Elt F)) : after hostOps1 V (↟main_arg7) = V (↟main_arg7) := by after_results_simp
theorem s1_arg8 (V : Valuation τ sig (Elt F)) : after hostOps1 V (↟main_arg8) = V (↟main_arg8) := by after_results_simp
theorem s1_arg9 (V : Valuation τ sig (Elt F)) : after hostOps1 V (↟main_arg9) = V (↟main_arg9) := by after_results_simp

/-! ## The third stretch: the aggregation of the second layer's output, the third bias row -/

theorem s2_v40 (V : Valuation τ sig (Elt F)) :
    after hostOps2 V (↟main_v40) = Cert.Spec.aggRows (F := F) (V (↟main_v29)) (V (↟main_v1)) (V (↟main_v3)) := by
  after_results_simp
  rfl
theorem s2_v41 (V : Valuation τ sig (Elt F)) :
    after hostOps2 V (↟main_v41) = Cert.Spec.row64 (F := F) (V (↟main_arg7)) := by
  after_results_simp
  exact row64_of_reshape _ _
theorem s2_arg6 (V : Valuation τ sig (Elt F)) : after hostOps2 V (↟main_arg6) = V (↟main_arg6) := by after_results_simp
theorem s2_arg8 (V : Valuation τ sig (Elt F)) : after hostOps2 V (↟main_arg8) = V (↟main_arg8) := by after_results_simp
theorem s2_arg9 (V : Valuation τ sig (Elt F)) : after hostOps2 V (↟main_arg9) = V (↟main_arg9) := by after_results_simp

/-! ## The statistics: the column mean, the column variance, and the rows the normalisation takes -/

theorem s3_v45 (V : Valuation τ sig (Elt F)) :
    after hostOps3 V (↟main_v45) = Cert.Spec.colMean (F := F) (V (↟main_v42)) := by
  after_results_simp
  rfl
theorem s3_c9 (V : Valuation τ sig (Elt F)) :
    after hostOps3 V (↟main_c_9) = constantI Cert.ReferenceIdeal.S_ 32 0#32 := by
  after_results_simp
theorem s3_v42 (V : Valuation τ sig (Elt F)) : after hostOps3 V (↟main_v42) = V (↟main_v42) := by after_results_simp
theorem s3_arg8 (V : Valuation τ sig (Elt F)) : after hostOps3 V (↟main_arg8) = V (↟main_arg8) := by after_results_simp
theorem s3_arg9 (V : Valuation τ sig (Elt F)) : after hostOps3 V (↟main_arg9) = V (↟main_arg9) := by after_results_simp

theorem s31_v46 (V : Valuation τ sig (Elt F)) :
    after hostOps3_1 V (↟main_v46) = Cert.Spec.colVarD (F := F) (V (↟main_v42)) (V (↟main_c_9)) := by
  after_results_simp
  rfl
theorem s31_v42 (V : Valuation τ sig (Elt F)) : after hostOps3_1 V (↟main_v42) = V (↟main_v42) := by after_results_simp
theorem s31_v45 (V : Valuation τ sig (Elt F)) : after hostOps3_1 V (↟main_v45) = V (↟main_v45) := by after_results_simp
theorem s31_arg8 (V : Valuation τ sig (Elt F)) : after hostOps3_1 V (↟main_arg8) = V (↟main_arg8) := by after_results_simp
theorem s31_arg9 (V : Valuation τ sig (Elt F)) : after hostOps3_1 V (↟main_arg9) = V (↟main_arg9) := by after_results_simp

theorem s32_v50 (V : Valuation τ sig (Elt F)) :
    after hostOps3_2 V (↟main_v50) = Cert.Spec.row64 (F := F) (V (↟main_v45)) := by
  after_results_simp
  exact row64_of_reshape _ _
theorem s32_v51 (V : Valuation τ sig (Elt F)) :
    after hostOps3_2 V (↟main_v51) = Cert.Spec.row64 (F := F) (Cert.Spec.rstdOf (V (↟main_v46))) := by
  after_results_simp
  exact row64_of_reshape _ _
theorem s32_v52 (V : Valuation τ sig (Elt F)) :
    after hostOps3_2 V (↟main_v52) = Cert.Spec.row64 (F := F) (V (↟main_arg8)) := by
  after_results_simp
  exact row64_of_reshape _ _
theorem s32_v53 (V : Valuation τ sig (Elt F)) :
    after hostOps3_2 V (↟main_v53) = Cert.Spec.row64 (F := F) (V (↟main_arg9)) := by
  after_results_simp
  exact row64_of_reshape _ _
theorem s32_v42 (V : Valuation τ sig (Elt F)) : after hostOps3_2 V (↟main_v42) = V (↟main_v42) := by after_results_simp

end Stretches

section Boundaries

variable (m : (ℓ : Loc nD τ sig) → Buf (Elt Ideal) ℓ) (ρ : Dev nD → PrngReg) (c : Dev nD)

local notation "𝔞0" => m ((c.tc : Thread nD τ).loc main_arg0)
local notation "𝔞1" => m ((c.tc : Thread nD τ).loc main_arg1)
local notation "𝔞2" => m ((c.tc : Thread nD τ).loc main_arg2)
local notation "𝔞3" => m ((c.tc : Thread nD τ).loc main_arg3)
local notation "𝔞4" => m ((c.tc : Thread nD τ).loc main_arg4)
local notation "𝔞5" => m ((c.tc : Thread nD τ).loc main_arg5)
local notation "𝔞6" => m ((c.tc : Thread nD τ).loc main_arg6)
local notation "𝔞7" => m ((c.tc : Thread nD τ).loc main_arg7)
local notation "𝔞8" => m ((c.tc : Thread nD τ).loc main_arg8)
local notation "𝔞9" => m ((c.tc : Thread nD τ).loc main_arg9)
/- the two index rows, and the three layers' outputs -/
local notation "𝔯0" => Cert.Spec.edgeRow0 𝔞1
local notation "𝔯1" => Cert.Spec.edgeRow1 𝔞1
local notation "𝔥1" => Cert.Spec.relu128 (F := Ideal) (Cert.Spec.dense128r (Cert.Spec.agg 𝔞0 𝔞1) 𝔞2 (Cert.Spec.row128 𝔞3))
local notation "𝔥2" => Cert.Spec.relu128 (F := Ideal) (Cert.Spec.dense128r (Cert.Spec.aggRows 𝔥1 𝔯0 𝔯1) 𝔞4 (Cert.Spec.row128 𝔞5))
local notation "𝔥3" => Cert.Spec.dense64r (F := Ideal) (Cert.Spec.aggRows 𝔥2 𝔯0 𝔯1) 𝔞6 (Cert.Spec.row64 𝔞7)

set_option maxHeartbeats 1600000 in
/-- The kernel program's result array at the last boundary is the network of the launch arrays. -/
theorem value :
    W10 m ρ c (↟main_v54) = Cert.Spec.out (F := Ideal) 𝔞0 𝔞1 𝔞2 𝔞3 𝔞4 𝔞5 𝔞6 𝔞7 𝔞8 𝔞9 := by
  -- after the first stretch
  have b1_v14 : W1 m ρ c (↟main_v14) = Cert.Spec.agg (F := Ideal) 𝔞0 𝔞1 := s0_v14 (W0 m ρ c)
  have b1_v15 : W1 m ρ c (↟main_v15) = Cert.Spec.row128 (F := Ideal) 𝔞3 := s0_v15 (W0 m ρ c)
  have b1_v1 : W1 m ρ c (↟main_v1) = 𝔯0 := s0_v1 (W0 m ρ c)
  have b1_v3 : W1 m ρ c (↟main_v3) = 𝔯1 := s0_v3 (W0 m ρ c)
  have b1_arg2 : W1 m ρ c (↟main_arg2) = 𝔞2 := s0_arg2 (W0 m ρ c)
  have b1_arg4 : W1 m ρ c (↟main_arg4) = 𝔞4 := s0_arg4 (W0 m ρ c)
  have b1_arg5 : W1 m ρ c (↟main_arg5) = 𝔞5 := s0_arg5 (W0 m ρ c)
  have b1_arg6 : W1 m ρ c (↟main_arg6) = 𝔞6 := s0_arg6 (W0 m ρ c)
  have b1_arg7 : W1 m ρ c (↟main_arg7) = 𝔞7 := s0_arg7 (W0 m ρ c)
  have b1_arg8 : W1 m ρ c (↟main_arg8) = 𝔞8 := s0_arg8 (W0 m ρ c)
  have b1_arg9 : W1 m ρ c (↟main_arg9) = 𝔞9 := s0_arg9 (W0 m ρ c)
  -- after the first layer's region
  have b2_v16 : W2 m ρ c (↟main_v16) = 𝔥1 := by
    refine (W2_arr m ρ c 3).trans ((Cert.KernelIdeal.Regions.dense0_value (V1 m ρ) c).trans ?_)
    rw [show V1 m ρ c main_v14 = _ from b1_v14, show V1 m ρ c main_arg2 = _ from b1_arg2, show V1 m ρ c main_v15 = _ from b1_v15]
  have b2_v1 : W2 m ρ c (↟main_v1) = 𝔯0 := (W2_of_ne m ρ c main_v1 (by decide)).trans b1_v1
  have b2_v3 : W2 m ρ c (↟main_v3) = 𝔯1 := (W2_of_ne m ρ c main_v3 (by decide)).trans b1_v3
  have b2_arg4 : W2 m ρ c (↟main_arg4) = 𝔞4 := (W2_of_ne m ρ c main_arg4 (by decide)).trans b1_arg4
  have b2_arg5 : W2 m ρ c (↟main_arg5) = 𝔞5 := (W2_of_ne m ρ c main_arg5 (by decide)).trans b1_arg5
  have b2_arg6 : W2 m ρ c (↟main_arg6) = 𝔞6 := (W2_of_ne m ρ c main_arg6 (by decide)).trans b1_arg6
  have b2_arg7 : W2 m ρ c (↟main_arg7) = 𝔞7 := (W2_of_ne m ρ c main_arg7 (by decide)).trans b1_arg7
  have b2_arg8 : W2 m ρ c (↟main_arg8) = 𝔞8 := (W2_of_ne m ρ c main_arg8 (by decide)).trans b1_arg8
  have b2_arg9 : W2 m ρ c (↟main_arg9) = 𝔞9 := (W2_of_ne m ρ c main_arg9 (by decide)).trans b1_arg9
  -- after the second stretch
  have b3_v27 : W3 m ρ c (↟main_v27) = Cert.Spec.aggRows (F := Ideal) 𝔥1 𝔯0 𝔯1 :=
    (s1_v27 (W2 m ρ c)).trans (by rw [b2_v16, b2_v1, b2_v3])
  have b3_v28 : W3 m ρ c (↟main_v28) = Cert.Spec.row128 (F := Ideal) 𝔞5 := (s1_v28 (W2 m ρ c)).trans (by rw [b2_arg5])
  have b3_arg4 : W3 m ρ c (↟main_arg4) = 𝔞4 := (s1_arg4 (W2 m ρ c)).trans b2_arg4
  have b3_v1 : W3 m ρ c (↟main_v1) = 𝔯0 := (s1_v1 (W2 m ρ c)).trans b2_v1
  have b3_v3 : W3 m ρ c (↟main_v3) = 𝔯1 := (s1_v3 (W2 m ρ c)).trans b2_v3
  have b3_arg6 : W3 m ρ c (↟main_arg6) = 𝔞6 := (s1_arg6 (W2 m ρ c)).trans b2_arg6
  have b3_arg7 : W3 m ρ c (↟main_arg7) = 𝔞7 := (s1_arg7 (W2 m ρ c)).trans b2_arg7
  have b3_arg8 : W3 m ρ c (↟main_arg8) = 𝔞8 := (s1_arg8 (W2 m ρ c)).trans b2_arg8
  have b3_arg9 : W3 m ρ c (↟main_arg9) = 𝔞9 := (s1_arg9 (W2 m ρ c)).trans b2_arg9
  -- after the second layer's region
  have b4_v29 : W4 m ρ c (↟main_v29) = 𝔥2 := by
    refine (W4_arr m ρ c 3).trans ((Cert.KernelIdeal.Regions.dense1_value (V3 m ρ) c).trans ?_)
    rw [show V3 m ρ c main_v27 = _ from b3_v27, show V3 m ρ c main_arg4 = _ from b3_arg4, show V3 m ρ c main_v28 = _ from b3_v28]
  have b4_v1 : W4 m ρ c (↟main_v1) = 𝔯0 := (W4_of_ne m ρ c main_v1 (by decide)).trans b3_v1
  have b4_v3 : W4 m ρ c (↟main_v3) = 𝔯1 := (W4_of_ne m ρ c main_v3 (by decide)).trans b3_v3
  have b4_arg6 : W4 m ρ c (↟main_arg6) = 𝔞6 := (W4_of_ne m ρ c main_arg6 (by decide)).trans b3_arg6
  have b4_arg7 : W4 m ρ c (↟main_arg7) = 𝔞7 := (W4_of_ne m ρ c main_arg7 (by decide)).trans b3_arg7
  have b4_arg8 : W4 m ρ c (↟main_arg8) = 𝔞8 := (W4_of_ne m ρ c main_arg8 (by decide)).trans b3_arg8
  have b4_arg9 : W4 m ρ c (↟main_arg9) = 𝔞9 := (W4_of_ne m ρ c main_arg9 (by decide)).trans b3_arg9
  -- after the third stretch
  have b5_v40 : W5 m ρ c (↟main_v40) = Cert.Spec.aggRows (F := Ideal) 𝔥2 𝔯0 𝔯1 :=
    (s2_v40 (W4 m ρ c)).trans (by rw [b4_v29, b4_v1, b4_v3])
  have b5_v41 : W5 m ρ c (↟main_v41) = Cert.Spec.row64 (F := Ideal) 𝔞7 := (s2_v41 (W4 m ρ c)).trans (by rw [b4_arg7])
  have b5_arg6 : W5 m ρ c (↟main_arg6) = 𝔞6 := (s2_arg6 (W4 m ρ c)).trans b4_arg6
  have b5_arg8 : W5 m ρ c (↟main_arg8) = 𝔞8 := (s2_arg8 (W4 m ρ c)).trans b4_arg8
  have b5_arg9 : W5 m ρ c (↟main_arg9) = 𝔞9 := (s2_arg9 (W4 m ρ c)).trans b4_arg9
  -- after the third layer's region
  have b6_v42 : W6 m ρ c (↟main_v42) = 𝔥3 := by
    refine (W6_arr m ρ c 3).trans ((Cert.KernelIdeal.Regions.dense2_value (V5 m ρ) c).trans ?_)
    rw [show V5 m ρ c main_v40 = _ from b5_v40, show V5 m ρ c main_arg6 = _ from b5_arg6, show V5 m ρ c main_v41 = _ from b5_v41]
  have b6_arg8 : W6 m ρ c (↟main_arg8) = 𝔞8 := (W6_of_ne m ρ c main_arg8 (by decide)).trans b5_arg8
  have b6_arg9 : W6 m ρ c (↟main_arg9) = 𝔞9 := (W6_of_ne m ρ c main_arg9 (by decide)).trans b5_arg9
  -- the statistics
  have b7_v45 : W7 m ρ c (↟main_v45) = Cert.Spec.colMean (F := Ideal) 𝔥3 := (s3_v45 (W6 m ρ c)).trans (by rw [b6_v42])
  have b7_c9 : W7 m ρ c (↟main_c_9) = constantI Cert.ReferenceIdeal.S_ 32 0#32 := s3_c9 (W6 m ρ c)
  have b7_v42 : W7 m ρ c (↟main_v42) = 𝔥3 := (s3_v42 (W6 m ρ c)).trans b6_v42
  have b7_arg8 : W7 m ρ c (↟main_arg8) = 𝔞8 := (s3_arg8 (W6 m ρ c)).trans b6_arg8
  have b7_arg9 : W7 m ρ c (↟main_arg9) = 𝔞9 := (s3_arg9 (W6 m ρ c)).trans b6_arg9
  have b8_v46 : W8 m ρ c (↟main_v46) = Cert.Spec.colVar (F := Ideal) 𝔥3 :=
    (s31_v46 (W7 m ρ c)).trans (congrArg₂ (Cert.Spec.colVarD (F := Ideal)) b7_v42 b7_c9)
  have b8_v42 : W8 m ρ c (↟main_v42) = 𝔥3 := (s31_v42 (W7 m ρ c)).trans b7_v42
  have b8_v45 : W8 m ρ c (↟main_v45) = Cert.Spec.colMean (F := Ideal) 𝔥3 := (s31_v45 (W7 m ρ c)).trans b7_v45
  have b8_arg8 : W8 m ρ c (↟main_arg8) = 𝔞8 := (s31_arg8 (W7 m ρ c)).trans b7_arg8
  have b8_arg9 : W8 m ρ c (↟main_arg9) = 𝔞9 := (s31_arg9 (W7 m ρ c)).trans b7_arg9
  have b9_v50 : W9 m ρ c (↟main_v50) = Cert.Spec.row64 (F := Ideal) (Cert.Spec.colMean 𝔥3) := (s32_v50 (W8 m ρ c)).trans (by rw [b8_v45])
  have b9_v51 : W9 m ρ c (↟main_v51) = Cert.Spec.row64 (F := Ideal) (Cert.Spec.rstd 𝔥3) :=
    (s32_v51 (W8 m ρ c)).trans (congrArg (fun v => Cert.Spec.row64 (F := Ideal) (Cert.Spec.rstdOf v)) b8_v46)
  have b9_v52 : W9 m ρ c (↟main_v52) = Cert.Spec.row64 (F := Ideal) 𝔞8 := (s32_v52 (W8 m ρ c)).trans (by rw [b8_arg8])
  have b9_v53 : W9 m ρ c (↟main_v53) = Cert.Spec.row64 (F := Ideal) 𝔞9 := (s32_v53 (W8 m ρ c)).trans (by rw [b8_arg9])
  have b9_v42 : W9 m ρ c (↟main_v42) = 𝔥3 := (s32_v42 (W8 m ρ c)).trans b8_v42
  -- after the normalisation's region
  refine (W10_arr m ρ c 5).trans ((Cert.KernelIdeal.Regions.norm_value (V9 m ρ) c).trans ?_)
  rw [show V9 m ρ c main_v42 = _ from b9_v42, show V9 m ρ c main_v50 = _ from b9_v50, show V9 m ρ c main_v51 = _ from b9_v51,
    show V9 m ρ c main_v52 = _ from b9_v52, show V9 m ρ c main_v53 = _ from b9_v53]
  rfl

end Boundaries

end Cert.KernelIdeal.KValue

end
-- ==== Proof.RefRun.lean ====
/-
  The reference's run: @main as one straight line of host operations (the three outlined functions opened at their
  calls), and what every weakly fair execution of it ends with.
-/
import proofs.«178634_j77558519431976_1_alg».proof.Proof.Gen.ReferenceIdeal
import proofs.«178634_j77558519431976_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 108 operations in order. The rectified-linear function's three (the zero, its broadcast, the maximum) stand at
    each of its two calls over that call's buffers; the variance function's twenty-two stand at its call: nineteen of its own,
    then the three of the selection it calls (the not-a-number constant converted and broadcast, the select under the
    sign of the divisor). -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v18 : TRef sig ⟨S100000x128, .f32⟩) main_call0.v0 main_call0.v1 maximumf,
    StableHlo.nullary main_c_1 (constantI S_ 32 0#32),
    StableHlo.unary main_c_1 main_v20 (broadcastInDim S1600000 ![] bcast_S_S1600000 : (⟨S_, .i32⟩ : BufTy).Contents (Elt F) → (⟨S1600000, .i32⟩ : BufTy).Contents (Elt F)),
    StableHlo.binary main_v1 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v22 (broadcastInDim S1600000 ![] bcast_S_S1600000 : (⟨S_, .i32⟩ : BufTy).Contents (Elt F) → (⟨S1600000, .i32⟩ : BufTy).Contents (Elt F)),
    StableHlo.binary main_v1 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v19 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v27 (broadcastInDim S100000x128 ![] bcast_S_S100000x128 : (⟨S_, .f32⟩ : BufTy).Contents (Elt F) → (⟨S100000x128, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v19 main_v29 main_v30 (addf : (⟨S100000x128, .f32⟩ : BufTy).Contents (Elt F) → (⟨S100000x128, .f32⟩ : BufTy).Contents (Elt F) → (⟨S100000x128, .f32⟩ : BufTy).Contents (Elt F)),
    StableHlo.binary main_v30 main_arg4 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v34 : TRef sig ⟨S100000x128, .f32⟩) main_call1.v0 main_call1.v1 maximumf,
    StableHlo.nullary main_c_4 (constantI S_ 32 0#32),
    StableHlo.unary main_c_4 main_v36 (broadcastInDim S1600000 ![] bcast_S_S1600000 : (⟨S_, .i32⟩ : BufTy).Contents (Elt F) → (⟨S1600000, .i32⟩ : BufTy).Contents (Elt F)),
    StableHlo.binary main_v1 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v38 (broadcastInDim S1600000 ![] bcast_S_S1600000 : (⟨S_, .i32⟩ : BufTy).Contents (Elt F) → (⟨S1600000, .i32⟩ : BufTy).Contents (Elt F)),
    StableHlo.binary main_v1 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_v1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_6 (constant S_ .f32 0x00000000#32),
    StableHlo.unary main_cst_6 main_v43 (broadcastInDim S100000x128 ![] bcast_S_S100000x128 : (⟨S_, .f32⟩ : BufTy).Contents (Elt F) → (⟨S100000x128, .f32⟩ : BufTy).Contents (Elt F)),
    StableHlo.unary main_v3 main_v44 (broadcastInDim S1600000x1 ![0] bcast_S1600000_S1600000x1_0 : (⟨S1600000, .i32⟩ : BufTy).Contents (Elt F) → (⟨S1600000x1, .i32⟩ : BufTy).Contents (Elt F)),
    StableHlo.ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v35 main_v45 main_v46 (addf : (⟨S100000x128, .f32⟩ : BufTy).Contents (Elt F) → (⟨S100000x128, .f32⟩ : BufTy).Contents (Elt F) → (⟨S100000x128, .f32⟩ : BufTy).Contents (Elt F)),
    StableHlo.binary main_v46 main_arg6 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x00000000#32),
    StableHlo.binary main_v50 main_cst_7 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v52 (broadcastInDim S64 ![] bcast_S_S64 : (⟨S_, .f32⟩ : BufTy).Contents (Elt F) → (⟨S64, .f32⟩ : BufTy).Contents (Elt F)),
    StableHlo.binary main_v51 main_v52 main_v53 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    TRef.nullary main_call2.cst (constant S_ .f32 0x00000000#32),
    TRef.binary (.of main_v50 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v50 : TRef sig ⟨S100000x64, .f32⟩) main_call2.v4 main_call2.v5 subf,
    TRef.binary main_call2.v5 main_call2.v5 main_call2.v6 mulf,
    TRef.unary (.of main_c_9 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    StableHlo.unary main_v53 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v56 main_v57 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v58 (broadcastInDim S64 ![] bcast_S_S64 : (⟨S_, .f32⟩ : BufTy).Contents (Elt F) → (⟨S64, .f32⟩ : BufTy).Contents (Elt F)),
    StableHlo.binary main_v54 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg8 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_arg9 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- @main is that straight line: its two windows and the three functions unfolded at their calls, both sides are one chain
    of steps once sequencing is reassociated. -/
theorem main_eq (c : Dev nD) : main (F := F) c = seq ops := by
  simp only [main, main_part0, main_part1, fn_relu.body, fn_var.body, fn_where.body, seq, bind_assoc, pure_bind]

attribute [local irreducible] Host.gather Host.scatterAdd Host.reduceAdd Host.divf Host.rsqrt in
set_option maxRecDepth 16384 in
set_option maxHeartbeats 4000000 in
/-- The fold at the result buffer is the specification's value of the ten arguments. Each operation's result is read at
    its own buffer and passed over at every other, which leaves the composed term of the argument arrays: three times
    the aggregation (gather along the wrapped sources, scatter-add into the destinations, the node's own row added),
    the affine map and, twice, the maximum with zero; then the column mean, the centred squares' column sums over the
    divisor 100000 - 0 under its sign test, the inverse square root of the variance plus epsilon, and the scaling by
    gamma and shift by beta. The specification's definitions unfold to the same term. Gather, scatter-add, the column
    sums, the quotient and the inverse square root are kept folded meanwhile: the equation never looks inside them. -/
theorem out_eq (V : Valuation τ sig (Elt F)) :
    after ops V (main_v69 : DevRef τ sig) = Cert.Spec.out (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

/-! No operation writes an argument's buffer: each keeps its contents through the line. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- On every device, for any float values, from any memory with zero counters: every weakly fair execution of @main
    terminates with the result buffer at the specification's value of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = Cert.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v69).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.lean ====
/-
  A three-layer graph network with a normalisation over the nodes: the tiled kernels against the plain reference.

  Both programs aggregate each node's in-neighbours by the same host gather and scatter-add, three times. The kernel
  program computes each layer's affine map in a tiled kernel region (the rows in ten blocks of 10000, the weight and
  the bias row whole; the contraction over the 128 features in a matrix unit fed through a narrower float format, a
  change of format being the identity over the extended reals), where the reference applies one whole contraction and
  adds the broadcast bias; both take max(., 0) after the first two layers. Both compute the column mean, the biased
  column variance and (var + eps)^(-1/2) on the host by the same operations; the kernel program then applies
  ((h - mean) * rstd) * gamma + beta in a fourth tiled region, the reference on the host, in the same order of
  operations. Index by index every region's output array is the reference's host term of the region's inputs, so the
  two results are one function (Spec.out) of the ten arguments; no algebraic law beyond the definition of a
  contraction as a sum is used, and the precondition is never opened.

  The three frames: the two kernel programs' from their generated frame certificates; the reference's from its run
  with the result dropped. The idealisation rewrote nothing, so it preserves the kernel trivially.
-/
import proofs.«178634_j77558519431976_1_alg».proof.Defs
import proofs.«178634_j77558519431976_1_alg».proof.Proof.Gen.Kernel
import proofs.«178634_j77558519431976_1_alg».proof.Proof.Gen.Kernel.Skeleton
import proofs.«178634_j77558519431976_1_alg».proof.Proof.Gen.Kernel.Launch
import proofs.«178634_j77558519431976_1_alg».proof.Proof.Gen.Kernel.Points
import proofs.«178634_j77558519431976_1_alg».proof.Proof.Gen.Kernel.Frame
import proofs.«178634_j77558519431976_1_alg».proof.Proof.Gen.KernelIdeal
import proofs.«178634_j77558519431976_1_alg».proof.Proof.Gen.KernelIdeal.Skeleton
import proofs.«178634_j77558519431976_1_alg».proof.Proof.Gen.KernelIdeal.Launch
import proofs.«178634_j77558519431976_1_alg».proof.Proof.Gen.KernelIdeal.Points
import proofs.«178634_j77558519431976_1_alg».proof.Proof.Gen.KernelIdeal.Frame
import proofs.«178634_j77558519431976_1_alg».proof.Proof.Gen.ReferenceIdeal
import proofs.«178634_j77558519431976_1_alg».proof.Proof.Gen.Pre_finite_inputs
import proofs.«178634_j77558519431976_1_alg».proof.Proof.Spec
import proofs.«178634_j77558519431976_1_alg».proof.Proof.KRun
import proofs.«178634_j77558519431976_1_alg».proof.Proof.KValue
import proofs.«178634_j77558519431976_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with the network Spec.out of the (agreeing) argument arrays. -/
theorem algebraic : Cert.algebraic_KernelIdeal_ReferenceIdeal := by
  intro m ρ m' ρ' _ hagree
  refine ⟨fun c => Cert.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.value m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
